-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg21 : FVec F S128 .f32) (main_arg22 : FVec F S128x10 .f32) (main_arg23 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x10 .f32 := Host.absf main_arg22
  let main_cst_36 : FVec F S_ .f32 := constant S_ .f32 0x7F800000#32
  let main_v95 : FVec F S128x10 .f32 := broadcastInDim S128x10 ![] bcast_S_S128x10 main_cst_36
  let main_v96 : IVec S128x10 1 := cmpf .olt main_v94 main_v95
  let main_c_37 : IVec S_ 1 := constantI S_ 1 1#1
  let main_v97 : IVec S_ 1 := (fun x v => Host.reduce IntOp.andi x v reducesTo_S128x10_S_d0_1 h_S_) main_v96 main_c_37
  let main_v98 : IVec S_ 1 := andi main_v93 main_v97
  let main_v99 : FVec F S10 .f32 := Host.absf main_arg23
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg17 : FVec F S128 .f32) (main_arg18 : FVec F S128 .f32) (main_arg19 : FVec F S128 .f32) (main_arg20 : FVec F S128x128 .f32) (main_arg21 : FVec F S128 .f32) (main_arg22 : FVec F S128x10 .f32) (main_arg23 : FVec F S10 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_v83 main_v84 main_cst_32

def fn_part3 {F : FTy → Type} [FloatOps F] (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128x10 .f32) (main_arg23 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_v63 main_v67

def fn_part2 {F : FTy → Type} [FloatOps F] (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128x10 .f32) (main_arg23 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128x10 .f32) (main_arg23 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_arg20 : FVec F S128x128 .f32) (main_arg21 : FVec F S128 .f32) (main_arg22 : FVec F S128x10 .f32) (main_arg23 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S50000x1 : Shape := ⟨2, ![50000, 1]⟩
abbrev S512x128 : Shape := ⟨2, ![512, 128]⟩
abbrev S1x512 : Shape := ⟨2, ![1, 512]⟩
abbrev S2000x512 : Shape := ⟨2, ![2000, 512]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 108
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x10, .f32⟩
  | .hbm, ⟨23, _⟩ => ⟨S10, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S50000x1, .i32⟩
  | .hbm, ⟨77, _⟩ => ⟨S512x128, .f32⟩
  | .hbm, ⟨78, _⟩ => ⟨S1x512, .f32⟩
  | .hbm, ⟨79, _⟩ => ⟨S512x1, .f32⟩
  | .hbm, ⟨80, _⟩ => ⟨S_, .f32⟩
  | .hbm, ⟨81, _⟩ => ⟨S512x1, .f32⟩
  | .hbm, ⟨82, _⟩ => ⟨S512x1, .f32⟩
  | .hbm, ⟨83, _⟩ => ⟨S512x128, .f32⟩
  | .hbm, ⟨84, _⟩ => ⟨S512x128, .f32⟩
  | .hbm, ⟨85, _⟩ => ⟨S512x128, .f32⟩
  | .hbm, ⟨86, _⟩ => ⟨S1x128, .f32⟩
  | .hbm, ⟨87, _⟩ => ⟨S512x128, .f32⟩
  | .hbm, ⟨88, _⟩ => ⟨S512x128, .f32⟩
  | .hbm, ⟨89, _⟩ => ⟨S512x10, .f32⟩
  | .hbm, ⟨90, _⟩ => ⟨S1x10, .f32⟩
  | .hbm, ⟨91, _⟩ => ⟨S512x10, .f32⟩
  | .hbm, ⟨92, _⟩ => ⟨S512x10, .f32⟩
  | .hbm, ⟨93, _⟩ => ⟨S_, .f32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x10, .f32⟩
  | .hbm, ⟨100, _⟩ => ⟨S512x10, .f32⟩
  | .hbm, ⟨101, _⟩ => ⟨S512x10, .f32⟩
  | .hbm, ⟨102, _⟩ => ⟨S_, .f32⟩
  | .hbm, ⟨103, _⟩ => ⟨S512, .f32⟩
  | .hbm, ⟨104, _⟩ => ⟨S512x1, .f32⟩
  | .hbm, ⟨105, _⟩ => ⟨S512x1, .f32⟩
  | .hbm, ⟨106, _⟩ => ⟨S512x10, .f32⟩
  | .hbm, ⟨107, _⟩ => ⟨S512x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .i32⟩
  | .local _ .vmem, ⟨37, _⟩ => ⟨S2000x1, .i32⟩
  | .local _ .vmem, ⟨38, _⟩ => ⟨S512x128, .f32⟩
  | .local _ .vmem, ⟨39, _⟩ => ⟨S1x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_1 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44_0 : Ref sig .tc := ⟨.hbm, 77, rfl⟩
abbrev main_v44_1 : Ref sig .tc := ⟨.hbm, 78, rfl⟩
abbrev main_v45 : Ref sig .tc := ⟨.hbm, 79, rfl⟩
abbrev main_cst_7 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call0_cst : Ref sig .tc := ⟨.hbm, 93, rfl⟩
abbrev main_call0_v0 : Ref sig .tc := ⟨.hbm, 94, rfl⟩
abbrev main_call0_cst_0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_cst_1 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_v58 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S50000_S50000x1 : S50000.ShapeCasts S50000x1
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  iota_S1x512_d1_w32 : S1x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  broadcasts_S1x512_S2000x512 : S1x512.Broadcasts S2000x512
  natLt_1_32 : 1 < 32
  shapeCasts_S1x512_S1x512 : S1x512.ShapeCasts S1x512
  reduces_S2000x512_S512 : S2000x512.Reduces [0] S512
  shapeCasts_S512_S1x512 : S512.ShapeCasts S1x512
  shapeCasts_S512x128_S512x128 : S512x128.ShapeCasts S512x128
  shapeCasts_S1x512_S512x1 : S1x512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x512_S2000x128_S512x128_0_0_1_1_n_n_wf : DotDims.WF S2000x512 S2000x128 S512x128 [0] [0] [1] [1] [] []
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44_0) S512x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44_1) S1x512.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩
abbrev S512 : Shape := ⟨1, ![512]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S128x128, .f32⟩
  | 21 => ⟨S128, .f32⟩
  | 22 => ⟨S128x10, .f32⟩
  | 23 => ⟨S10, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S_, .f32⟩
  | 70 => ⟨S50000x1, .f32⟩
  | 71 => ⟨S50000x1, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S50000x128, .f32⟩
  | 116 => ⟨S50000x128, .f32⟩
  | 117 => ⟨S50000x128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S_, .f32⟩
  | 127 => ⟨S50000x1, .f32⟩
  | _ => ⟨S50000x128, .f32⟩

abbrev hbmTy0_1 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S512x128, .f32⟩
  | 40 => ⟨S50000x1, .i32⟩
  | 41 => ⟨S512x128, .f32⟩
  | 42 => ⟨S_, .f32⟩
  | 43 => ⟨S50000x1, .f32⟩
  | 44 => ⟨S_, .f32⟩
  | 45 => ⟨S512x1, .f32⟩
  | 46 => ⟨S50000x1, .i32⟩
  | 47 => ⟨S512x1, .f32⟩
  | 48 => ⟨S_, .f32⟩
  | 49 => ⟨S512x1, .f32⟩
  | 50 => ⟨S512x1, .f32⟩
  | 51 => ⟨S512x128, .f32⟩
  | 52 => ⟨S512x128, .f32⟩
  | 53 => ⟨S512x128, .f32⟩
  | 54 => ⟨S1x128, .f32⟩
  | 55 => ⟨S512x128, .f32⟩
  | 56 => ⟨S512x128, .f32⟩
  | 57 => ⟨S512x10, .f32⟩
  | 58 => ⟨S1x10, .f32⟩
  | 59 => ⟨S512x10, .f32⟩
  | 60 => ⟨S512x10, .f32⟩
  | 61 => ⟨S_, .f32⟩
  | 62 => ⟨S512, .f32⟩
  | 63 => ⟨S_, .f32⟩
  | 64 => ⟨S512, .f32⟩
  | 65 => ⟨S512, .f32⟩
  | 66 => ⟨S512x1, .f32⟩
  | 67 => ⟨S512x10, .f32⟩
  | 68 => ⟨S512x10, .f32⟩
  | 69 => ⟨S512x10, .f32⟩
  | 70 => ⟨S_, .f32⟩
  | 71 => ⟨S512, .f32⟩
  | 72 => ⟨S512x1, .f32⟩
  | 73 => ⟨S512x1, .f32⟩
  | 74 => ⟨S512x10, .f32⟩
  | 75 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_cst_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_v68 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_v71 : Ref sig .tc := ⟨.hbm, 111, rfl⟩
abbrev main_cst_14 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_15 : Ref sig .tc := ⟨.hbm, 118, rfl⟩
abbrev main_v77 : Ref sig .tc := ⟨.hbm, 119, rfl⟩
abbrev main_v78 : Ref sig .tc := ⟨.hbm, 120, rfl⟩
abbrev main_cst_16 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_18 : Ref sig .tc := ⟨.hbm, 138, rfl⟩
abbrev main_v94 : Ref sig .tc := ⟨.hbm, 139, rfl⟩
abbrev main_v95 : Ref sig .tc := ⟨.hbm, 140, rfl⟩
abbrev main_c_19 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_22 : Ref sig .tc := ⟨.hbm, 163, rfl⟩
abbrev main_v115 : Ref sig .tc := ⟨.hbm, 164, rfl⟩
abbrev main_v116 : Ref sig .tc := ⟨.hbm, 165, rfl⟩
abbrev main_cst_23 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_24 : Ref sig .tc := ⟨.hbm, 170, rfl⟩
abbrev main_v120 : Ref sig .tc := ⟨.hbm, 171, rfl⟩
abbrev main_cst_25 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_26 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_call0_cst : Ref sig .tc := ⟨.hbm, 189, rfl⟩
abbrev main_call0_v0 : Ref sig .tc := ⟨.hbm, 190, rfl⟩
abbrev main_call0_cst_0 : Ref sig .tc := ⟨.hbm, 191, rfl⟩
abbrev main_call0_v1 : Ref sig .tc := ⟨.hbm, 192, rfl⟩
abbrev main_call0_v2 : Ref sig .tc := ⟨.hbm, 193, rfl⟩
abbrev main_call0_v3 : Ref sig .tc := ⟨.hbm, 194, rfl⟩
abbrev main_call0_v4 : Ref sig .tc := ⟨.hbm, 195, rfl⟩
abbrev main_call0_v5 : Ref sig .tc := ⟨.hbm, 196, rfl⟩
abbrev main_call0_v6 : Ref sig .tc := ⟨.hbm, 197, rfl⟩
abbrev main_call0_cst_1 : Ref sig .tc := ⟨.hbm, 198, rfl⟩
abbrev main_call0_v7 : Ref sig .tc := ⟨.hbm, 199, rfl⟩
abbrev main_call0_v8 : Ref sig .tc := ⟨.hbm, 200, rfl⟩
abbrev main_call0_v9 : Ref sig .tc := ⟨.hbm, 201, rfl⟩
abbrev main_call0_v10 : Ref sig .tc := ⟨.hbm, 202, rfl⟩
abbrev main_v136 : Ref sig .tc := ⟨.hbm, 203, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S512x128 : S_.BroadcastsInDim S512x128 (![] : Fin 0 → Fin S512x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  What one graph-isomorphism layer computes on one node's feature row, over the extended reals, and
  what the mean-pool's two accumulators hold.

  A node's row x and its neighbours' sum a (both of 128 entries) go through two affine maps with a
  rectifier between them:
      mlpRow x a = W2ᵀ · relu (W1ᵀ · (x + a) + b1) + b2 .
  The normalised layers rectify that row again, subtract its mean, divide by the root of its variance
  plus a small constant, and apply a gain and an offset:
      lnRow z = (relu z - μ) · rsqrt (σ² + ε) · g + b ,   μ = (Σ relu z) / 128 ,  σ² = (Σ (relu z - μ)²) / 128 .
  The pool sums, per graph id g, the rectified rows of the nodes whose batch word is g, and counts
  them; both are written with the indicator oh of "this word is g".
  Nothing here rounds and no order of summation is left: every sum is a finite sum in the extended reals.
-/
import Idealize.ShloMosaic.PureOps.Ideal
import Idealize.ShloMosaic.PureOps.Ideal.Laws
import Idealize.ShloMosaic.Lib.ValueIdx

noncomputable section

open scoped BigOperators

namespace Cert.Gin

open Idealize.ShloMosaic Idealize.ShloMosaic.ValueIdx

/-- A rank-2 array of extended reals. -/
abbrev A2 (m n : Nat) := (⟨2, ![m, n]⟩ : Shape).Idx → EReal
/-- A rank-1 array of extended reals. -/
abbrev A1 (n : Nat) := (⟨1, ![n]⟩ : Shape).Idx → EReal
/-- A rank-2 array of 32-bit words. -/
abbrev I2 (m n : Nat) := (⟨2, ![m, n]⟩ : Shape).Idx → BitVec 32

/-- One row through an affine map: entry q is Σ_k v k · W[k, q] + b q. -/
def lin (v : Fin 128 → EReal) (W : A2 128 128) (b : Fin 128 → EReal) (q : Fin 128) : EReal :=
  (∑ k : Fin 128, v k * W (ix2 k q)) + b q

/-- The layer's two affine maps with a rectifier between, on the row x + a. -/
def mlpRow (x a : Fin 128 → EReal) (W1 : A2 128 128) (b1 : Fin 128 → EReal) (W2 : A2 128 128)
    (b2 : Fin 128 → EReal) : Fin 128 → EReal :=
  lin (fun j => max (lin (fun k => x k + a k) W1 b1 j) 0) W2 b2

/-- The row length as the float constant the programs divide by (the word of 128.0). -/
def c128 : EReal := Ideal.ofBits .f32 0x43000000#32
/-- The variance's offset (the word both programs carry for 1e-5). -/
def cEps : EReal := Ideal.ofBits .f32 0x3727C5AC#32

/-- The rectified row's mean. -/
def rowMean (z : Fin 128 → EReal) : EReal := Ideal.div (∑ q : Fin 128, max (z q) 0) c128
/-- The rectified row's variance about its mean. -/
def rowVar (z : Fin 128 → EReal) : EReal :=
  Ideal.div (∑ q : Fin 128, (max (z q) 0 - rowMean z) * (max (z q) 0 - rowMean z)) c128

/-- Rectify, centre, scale by the inverse root of variance plus offset, then gain and offset. -/
def lnRow (z g b : Fin 128 → EReal) : Fin 128 → EReal := fun q =>
  (max (z q) 0 - rowMean z) * Ideal.rsqrt (rowVar z + cEps) * g q + b q

/-- A normalised layer on the whole node table: row r of the result is lnRow (mlpRow X[r] A[r]). The
    two offsets, the gain and the shift are given as rows (functions of the feature). -/
def layerLn (X A : A2 50000 128) (W1 : A2 128 128) (b1 : Fin 128 → EReal) (W2 : A2 128 128)
    (b2 g b : Fin 128 → EReal) : A2 50000 128 := fun i =>
  lnRow (mlpRow (fun k => X (ix2 (i 0) k)) (fun k => A (ix2 (i 0) k)) W1 b1 W2 b2) g b (i 1)

/-- The last layer, without the normalisation. -/
def layerMlp (X A : A2 50000 128) (W1 : A2 128 128) (b1 : Fin 128 → EReal) (W2 : A2 128 128)
    (b2 : Fin 128 → EReal) : A2 50000 128 := fun i =>
  mlpRow (fun k => X (ix2 (i 0) k)) (fun k => A (ix2 (i 0) k)) W1 b1 W2 b2 (i 1)

/-- The indicator that a batch word names graph g. -/
def oh (w : BitVec 32) (g : Fin 512) : EReal := if w = BitVec.ofNat 32 g.val then 1 else 0

/-- Per graph g and feature d: the sum of the rectified embedding over the nodes of that graph. -/
def poolSums (E : A2 50000 128) (B : Fin 50000 → BitVec 32) (g : Fin 512) (d : Fin 128) : EReal :=
  ∑ n : Fin 50000, oh (B n) g * max (E (ix2 n d)) 0

/-- Per graph g: how many nodes carry its id. -/
def poolCnts (B : Fin 50000 → BitVec 32) (g : Fin 512) : EReal := ∑ n : Fin 50000, oh (B n) g

end Cert.Gin

end
-- ==== Proof.KFold.lean ====
/-
  What the kernel program's buffers hold at each region's entry and at the end, read off the fold of
  its host stretches and regions through the launch memory.

  The neighbour aggregation (a gather of node rows by the source index, scatter-added by the
  destination index into a zero table) is carried as ONE function aggK of a node table and the two
  index vectors: it is never opened. An argument buffer is written by no host operation and is no
  region's output, so it holds its launch contents at every boundary.
-/
import proofs.«421258_j1958505087002_1_alg».proof.Proof.Gen.KernelIdeal.Frame
import proofs.«421258_j1958505087002_1_alg».proof.Proof.Spec
import Idealize.ShloMosaic.Lib.Pipeline.Value
import Idealize.ShloMosaic.Lib.ValueLayout

set_option maxRecDepth 16384

noncomputable section

namespace Cert.Gin.Fold

open Idealize.ShloMosaic Idealize.ShloMosaic.TcCoe Idealize.ShloMosaic.ValueIdx Idealize.SL.Sem Idealize.ShloMosaic.StableHlo
open Cert.KernelIdeal Cert.KernelIdeal.Gen Cert.Gin

variable {F : FTy → Type} [FloatOps F]

/-- Neighbour sums of a node table: rows gathered by src (a negative index wrapped once), scatter-added by dst. -/
def aggK (h : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt F) ℓ) (ρ : Dev nD → PrngReg) (c : Dev nD)

/-- Walks a read of the fold at a buffer back towards the launch memory: through a host stretch by
    its operations' results, through a region by "not one of its arrays". -/
macro "walk_fold" : tactic => `(tactic| (
  repeat (first
    | rfl
    | rw [W8_of_ne _ _ _ _ (by decide)]
    | rw [W6_of_ne _ _ _ _ (by decide)]
    | rw [W4_of_ne _ _ _ _ (by decide)]
    | rw [W2_of_ne _ _ _ _ (by decide)]
    | (show StableHlo.after _ _ _ = _; after_results))))

/-! ## The pooled head, carried whole -/

/-- The row-wise log-softmax of a 512 x 10 table, as the host operations print it. -/
def logSoftmaxK (x : FVec F S512x10 .f32) : FVec F S512x10 .f32 :=
  subf (subf x (broadcastInDim S512x10 ![0, 1] bcast_S512x1_S512x10_0_1 (broadcastInDim S512x1 ![0] bcast_S512_S512x1_0
      (maximumf (broadcastInDim S512 ![] bcast_S_S512 (constant S_ .f32 0xFF800000#32))
        (Host.reduce FloatOps.maximumf x (constant S_ .f32 0xFF800000#32) reducesTo_S512x10_S512_d1 h_S_)))))
    (broadcastInDim S512x10 ![0, 1] bcast_S512x1_S512x10_0_1 (Host.log (broadcastInDim S512x1 ![0] bcast_S512_S512x1_0
      (Host.reduceAdd (Host.exp (subf x (broadcastInDim S512x10 ![0, 1] bcast_S512x1_S512x10_0_1 (broadcastInDim S512x1 ![0] bcast_S512_S512x1_0
        (maximumf (broadcastInDim S512 ![] bcast_S_S512 (constant S_ .f32 0xFF800000#32))
          (Host.reduce FloatOps.maximumf x (constant S_ .f32 0xFF800000#32) reducesTo_S512x10_S512_d1 h_S_))))))
        (constant S_ .f32 0x00000000#32) reducesTo_S512x10_S512_d1 h_S_))))

/-- The head after the pool: sums divided by max(counts, 1), two affine maps, log-softmax. -/
def tailK (sums : FVec F S512x128 .f32) (cnts : FVec F S512x1 .f32) (Wp1 : FVec F S128x128 .f32) (bp1 : FVec F S128 .f32)
    (Wp2 : FVec F S128x10 .f32) (bp2 : FVec F S10 .f32) : FVec F S512x10 .f32 :=
  logSoftmaxK (addf (Host.dotGeneral dot_S512x128_S128x10_S512x10_1_0_0_1_n_n none
      (addf (Host.dotGeneral dot_S512x128_S128x128_S512x128_1_0_0_1_n_n none
          (Host.divf sums (broadcastInDim S512x128 ![0, 1] bcast_S512x1_S512x128_0_1
            (maximumf cnts (broadcastInDim S512x1 ![] bcast_S_S512x1 (constant S_ .f32 0x3F800000#32))))) Wp1)
        (broadcastInDim S512x128 ![0, 1] bcast_S1x128_S512x128_0_1 (broadcastInDim S1x128 ![1] bcast_S128_S1x128_1 bp1))) Wp2)
    (broadcastInDim S512x10 ![0, 1] bcast_S1x10_S512x10_0_1 (broadcastInDim S1x10 ![1] bcast_S10_S1x10_1 bp2)))

/-! ## Argument buffers at the region exits -/

theorem W2_arg1 : W2 m ρ c (Proc.devRef .tc main_arg1) = m ((c : Thread nD τ).loc main_arg1) := by walk_fold
theorem W2_arg2 : W2 m ρ c (Proc.devRef .tc main_arg2) = m ((c : Thread nD τ).loc main_arg2) := by walk_fold
theorem W2_arg8 : W2 m ρ c (Proc.devRef .tc main_arg8) = m ((c : Thread nD τ).loc main_arg8) := by walk_fold
theorem W2_arg9 : W2 m ρ c (Proc.devRef .tc main_arg9) = m ((c : Thread nD τ).loc main_arg9) := by walk_fold
theorem W2_arg10 : W2 m ρ c (Proc.devRef .tc main_arg10) = m ((c : Thread nD τ).loc main_arg10) := by walk_fold
theorem W2_arg11 : W2 m ρ c (Proc.devRef .tc main_arg11) = m ((c : Thread nD τ).loc main_arg11) := by walk_fold
theorem W2_arg18 : W2 m ρ c (Proc.devRef .tc main_arg18) = m ((c : Thread nD τ).loc main_arg18) := by walk_fold
theorem W2_arg19 : W2 m ρ c (Proc.devRef .tc main_arg19) = m ((c : Thread nD τ).loc main_arg19) := by walk_fold
theorem W4_arg1 : W4 m ρ c (Proc.devRef .tc main_arg1) = m ((c : Thread nD τ).loc main_arg1) := by walk_fold
theorem W4_arg2 : W4 m ρ c (Proc.devRef .tc main_arg2) = m ((c : Thread nD τ).loc main_arg2) := by walk_fold
theorem W4_arg12 : W4 m ρ c (Proc.devRef .tc main_arg12) = m ((c : Thread nD τ).loc main_arg12) := by walk_fold
theorem W4_arg13 : W4 m ρ c (Proc.devRef .tc main_arg13) = m ((c : Thread nD τ).loc main_arg13) := by walk_fold
theorem W4_arg14 : W4 m ρ c (Proc.devRef .tc main_arg14) = m ((c : Thread nD τ).loc main_arg14) := by walk_fold
theorem W4_arg15 : W4 m ρ c (Proc.devRef .tc main_arg15) = m ((c : Thread nD τ).loc main_arg15) := by walk_fold
theorem W6_arg3 : W6 m ρ c (Proc.devRef .tc main_arg3) = m ((c : Thread nD τ).loc main_arg3) := by walk_fold
theorem W8_arg20 : W8 m ρ c (Proc.devRef .tc main_arg20) = m ((c : Thread nD τ).loc main_arg20) := by walk_fold
theorem W8_arg21 : W8 m ρ c (Proc.devRef .tc main_arg21) = m ((c : Thread nD τ).loc main_arg21) := by walk_fold
theorem W8_arg22 : W8 m ρ c (Proc.devRef .tc main_arg22) = m ((c : Thread nD τ).loc main_arg22) := by walk_fold
theorem W8_arg23 : W8 m ρ c (Proc.devRef .tc main_arg23) = m ((c : Thread nD τ).loc main_arg23) := by walk_fold

/-! ## Region 0's entry -/

theorem V1_arg0 : V1 m ρ c main_arg0 = m ((c : Thread nD τ).loc main_arg0) := by
  show StableHlo.after hostOps0 _ _ = _; after_results_simp; first | done | rfl
theorem V1_arg4 : V1 m ρ c main_arg4 = m ((c : Thread nD τ).loc main_arg4) := by
  show StableHlo.after hostOps0 _ _ = _; after_results_simp; first | done | rfl
theorem V1_arg6 : V1 m ρ c main_arg6 = m ((c : Thread nD τ).loc main_arg6) := by
  show StableHlo.after hostOps0 _ _ = _; after_results_simp; first | done | rfl

set_option maxHeartbeats 4000000 in
theorem V1_v9 : V1 m ρ c main_v9 = aggK (m ((c : Thread nD τ).loc main_arg0)) (m ((c : Thread nD τ).loc main_arg1)) (m ((c : Thread nD τ).loc main_arg2)) := by
  show StableHlo.after hostOps0 _ _ = _; after_results_simp; first | done | rfl

theorem V1_v10 : V1 m ρ c main_v10 = shapeCast S1x128 (m ((c : Thread nD τ).loc main_arg5)) shapeCasts_S128_S1x128 := by
  show StableHlo.after hostOps0 _ _ = _; after_results_simp; first | done | rfl
theorem V1_v11 : V1 m ρ c main_v11 = shapeCast S1x128 (m ((c : Thread nD τ).loc main_arg7)) shapeCasts_S128_S1x128 := by
  show StableHlo.after hostOps0 _ _ = _; after_results_simp; first | done | rfl
theorem V1_v12 : V1 m ρ c main_v12 = shapeCast S1x128 (m ((c : Thread nD τ).loc main_arg16)) shapeCasts_S128_S1x128 := by
  show StableHlo.after hostOps0 _ _ = _; after_results_simp; first | done | rfl
theorem V1_v13 : V1 m ρ c main_v13 = shapeCast S1x128 (m ((c : Thread nD τ).loc main_arg17)) shapeCasts_S128_S1x128 := by
  show StableHlo.after hostOps0 _ _ = _; after_results_simp; first | done | rfl

/-! ## Region 1's entry -/

theorem V3_v14 : V3 m ρ c main_v14 = (dat0 (V1 m ρ) c).arrAt 8 cfg0.N := by
  show StableHlo.after hostOps1 _ _ = _; after_results_simp; exact W2_arr m ρ c 8
theorem V3_arg8 : V3 m ρ c main_arg8 = m ((c : Thread nD τ).loc main_arg8) := by
  show StableHlo.after hostOps1 _ _ = _; after_results_simp; exact W2_arg8 m ρ c
theorem V3_arg10 : V3 m ρ c main_arg10 = m ((c : Thread nD τ).loc main_arg10) := by
  show StableHlo.after hostOps1 _ _ = _; after_results_simp; exact W2_arg10 m ρ c

set_option maxHeartbeats 4000000 in
theorem V3_v24 : V3 m ρ c main_v24 = aggK ((dat0 (V1 m ρ) c).arrAt 8 cfg0.N) (m ((c : Thread nD τ).loc main_arg1)) (m ((c : Thread nD τ).loc main_arg2)) := by
  show StableHlo.after hostOps1 _ _ = _; after_results_simp
  rw [show W2 m ρ c (Proc.devRef .tc main_v14) = _ from W2_arr m ρ c 8, W2_arg1 m ρ c, W2_arg2 m ρ c]; rfl

theorem V3_v25 : V3 m ρ c main_v25 = shapeCast S1x128 (m ((c : Thread nD τ).loc main_arg9)) shapeCasts_S128_S1x128 := by
  show StableHlo.after hostOps1 _ _ = _; after_results_simp; rw [W2_arg9 m ρ c]; rfl
theorem V3_v26 : V3 m ρ c main_v26 = shapeCast S1x128 (m ((c : Thread nD τ).loc main_arg11)) shapeCasts_S128_S1x128 := by
  show StableHlo.after hostOps1 _ _ = _; after_results_simp; rw [W2_arg11 m ρ c]; rfl
theorem V3_v27 : V3 m ρ c main_v27 = shapeCast S1x128 (m ((c : Thread nD τ).loc main_arg18)) shapeCasts_S128_S1x128 := by
  show StableHlo.after hostOps1 _ _ = _; after_results_simp; rw [W2_arg18 m ρ c]; rfl
theorem V3_v28 : V3 m ρ c main_v28 = shapeCast S1x128 (m ((c : Thread nD τ).loc main_arg19)) shapeCasts_S128_S1x128 := by
  show StableHlo.after hostOps1 _ _ = _; after_results_simp; rw [W2_arg19 m ρ c]; rfl

/-! ## Region 2's entry -/

theorem V5_v29 : V5 m ρ c main_v29 = (dat1 (V3 m ρ) c).arrAt 8 cfg1.N := by
  show StableHlo.after hostOps2 _ _ = _; after_results_simp; exact W4_arr m ρ c 8
theorem V5_arg12 : V5 m ρ c main_arg12 = m ((c : Thread nD τ).loc main_arg12) := by
  show StableHlo.after hostOps2 _ _ = _; after_results_simp; exact W4_arg12 m ρ c
theorem V5_arg14 : V5 m ρ c main_arg14 = m ((c : Thread nD τ).loc main_arg14) := by
  show StableHlo.after hostOps2 _ _ = _; after_results_simp; exact W4_arg14 m ρ c

set_option maxHeartbeats 4000000 in
theorem V5_v39 : V5 m ρ c main_v39 = aggK ((dat1 (V3 m ρ) c).arrAt 8 cfg1.N) (m ((c : Thread nD τ).loc main_arg1)) (m ((c : Thread nD τ).loc main_arg2)) := by
  show StableHlo.after hostOps2 _ _ = _; after_results_simp
  rw [show W4 m ρ c (Proc.devRef .tc main_v29) = _ from W4_arr m ρ c 8, W4_arg1 m ρ c, W4_arg2 m ρ c]; rfl

theorem V5_v40 : V5 m ρ c main_v40 = shapeCast S1x128 (m ((c : Thread nD τ).loc main_arg13)) shapeCasts_S128_S1x128 := by
  show StableHlo.after hostOps2 _ _ = _; after_results_simp; rw [W4_arg13 m ρ c]; rfl
theorem V5_v41 : V5 m ρ c main_v41 = shapeCast S1x128 (m ((c : Thread nD τ).loc main_arg15)) shapeCasts_S128_S1x128 := by
  show StableHlo.after hostOps2 _ _ = _; after_results_simp; rw [W4_arg15 m ρ c]; rfl

/-! ## Region 3's entry -/

theorem V7_v42 : V7 m ρ c main_v42 = (dat2 (V5 m ρ) c).arrAt 6 cfg2.N := by
  show StableHlo.after hostOps3 _ _ = _; after_results_simp; exact W6_arr m ρ c 6
theorem V7_v43 : V7 m ρ c main_v43 = shapeCast S50000x1 (m ((c : Thread nD τ).loc main_arg3)) shapeCasts_S50000_S50000x1 := by
  show StableHlo.after hostOps3 _ _ = _; after_results_simp; rw [W6_arg3 m ρ c]; rfl

/-! ## The two results at the end -/

theorem W10_v42 : W10 m ρ c (Proc.devRef .tc main_v42) = (dat2 (V5 m ρ) c).arrAt 6 cfg2.N := by
  show StableHlo.after hostOps4_1 _ _ = _; after_results_simp
  exact (W8_arr m ρ c 0).trans ((((dat3 (V7 m ρ) c).arrAt_in 0 rfl _).trans (A_eq3 (V7 m ρ) c 0)).trans (V7_v42 m ρ c))

set_option maxHeartbeats 8000000 in
theorem W10_v58 : W10 m ρ c (Proc.devRef .tc main_v58)
    = tailK ((dat3 (V7 m ρ) c).arrAt 2 cfg3.N) (shapeCast S512x1 ((dat3 (V7 m ρ) c).arrAt 3 cfg3.N) shapeCasts_S1x512_S512x1)
        (m ((c : Thread nD τ).loc main_arg20)) (m ((c : Thread nD τ).loc main_arg21)) (m ((c : Thread nD τ).loc main_arg22)) (m ((c : Thread nD τ).loc main_arg23)) := by
  show StableHlo.after hostOps4_1 _ _ = _; after_results_simp
  rw [show W8 m ρ c (Proc.devRef .tc main_v44_0) = _ from W8_arr m ρ c 2, show W8 m ρ c (Proc.devRef .tc main_v44_1) = _ from W8_arr m ρ c 3,
    W8_arg20 m ρ c, W8_arg21 m ρ c, W8_arg22 m ρ c, W8_arg23 m ρ c]
  rfl

end Cert.Gin.Fold

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.PayRows.lean ====
/-
  The three layer kernels' arithmetic on one block of 2000 node rows, read at an entry.

  Each kernel body computes, from a block x0 of node rows, the block x1 of their neighbour sums, two
  128x128 weight tables and 1x128 offset rows, the value it stores. At row p and feature q that value
  depends on row p of x0 and x1 only: it is the spec's row function (mlpRow, then lnRow for the two
  normalised layers) of those two rows. A change of float format is the identity on the extended
  reals, a product accumulated into zero is the plain sum over the contracted coordinate, and a lane
  sum is the sum over the feature coordinate.
-/
import proofs.«421258_j1958505087002_1_alg».proof.Proof.Gen.KernelIdeal.Skeleton
import proofs.«421258_j1958505087002_1_alg».proof.Proof.Spec
import proofs.«421258_j1958505087002_1_alg».proof.Proof.LibDot2
import Idealize.ShloMosaic.Lib.Pipeline.Value
import Idealize.ShloMosaic.Lib.ValueLayout

noncomputable section

open scoped BigOperators

namespace Cert.Gin.Pay

open Idealize.ShloMosaic Idealize.ShloMosaic.ValueIdx Cert.KernelIdeal Cert.KernelIdeal.Gen Cert.Gin

/-! ## Layout and product at an entry -/

/-- One offset row spread over the block's rows reads, at (p, q), the row at q. -/
private theorem row_bc (v : Vec Ideal S1x128 .f32) (p : Fin 2000) (q : Fin 128) :
    broadcastTo S2000x128 (shapeCast S1x128 v shapeCasts_S1x128_S1x128) broadcasts_S1x128_S2000x128 (ix2 p q)
      = v (ix2 0 q) := by
  rw [shapeCast_self]
  exact broadcastTo_1b_ab_apply v _ p q

/-- The block product accumulated into zero, at (p, q): the sum over the contracted coordinate. -/
private theorem mm_apply {φ₁ φ₂ : FTy} (l : FVec Ideal S2000x128 φ₁) (r : FVec Ideal S128x128 φ₂)
    (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Dot2.matmul_zero_mm_apply dot_S2000x128_S128x128_S2000x128_1_0_0_1_n_n_wf none l r p q

/-- One affine map of the block: narrowed operands (the identity on extended reals), the product into
    zero, plus the offset row. At (p, q) it is lin of row p. -/
private theorem lin_apply (l : FVec Ideal S2000x128 .f32) (W : Vec Ideal S128x128 .f32) (b : Vec Ideal S1x128 .f32)
    (p : Fin 2000) (q : Fin 128) :
    addf (matmul dot_S2000x128_S128x128_S2000x128_1_0_0_1_n_n none (truncf .bf16 l bitsLt_bf16_f32)
            (truncf .bf16 W bitsLt_bf16_f32) (constant S2000x128 .f32 0x00000000#32))
        (broadcastTo S2000x128 (shapeCast S1x128 b shapeCasts_S1x128_S1x128) broadcasts_S1x128_S2000x128) (ix2 p q)
      = lin (fun k => l (ix2 p k)) W (fun j => b (ix2 0 j)) q := by
  rw [addf_apply, row_bc, mm_apply]
  rfl

/-- The two affine maps with the rectifier between, on the sum of two blocks, at (p, q): mlpRow of rows p. -/
private theorem mlp_apply (a c : FVec Ideal S2000x128 .f32) (W1 : Vec Ideal S128x128 .f32) (b1 : Vec Ideal S1x128 .f32)
    (W2 : Vec Ideal S128x128 .f32) (b2 : Vec Ideal S1x128 .f32) (p : Fin 2000) (q : Fin 128) :
    addf
      (matmul dot_S2000x128_S128x128_S2000x128_1_0_0_1_n_n none
        (truncf .bf16
          (maximumf
            (addf
              (matmul dot_S2000x128_S128x128_S2000x128_1_0_0_1_n_n none
                (truncf .bf16 (addf a c) bitsLt_bf16_f32)
                (truncf .bf16 W1 bitsLt_bf16_f32) (constant S2000x128 .f32 0x00000000#32))
              (broadcastTo S2000x128 (shapeCast S1x128 b1 shapeCasts_S1x128_S1x128) broadcasts_S1x128_S2000x128))
            (broadcast S2000x128 (Scalar.ofBits (F := Ideal) .f32 0x00000000#32)))
          bitsLt_bf16_f32)
        (truncf .bf16 W2 bitsLt_bf16_f32) (constant S2000x128 .f32 0x00000000#32))
      (broadcastTo S2000x128 (shapeCast S1x128 b2 shapeCasts_S1x128_S1x128) broadcasts_S1x128_S2000x128) (ix2 p q)
      = mlpRow (fun k => a (ix2 p k)) (fun k => c (ix2 p k)) W1 (fun j => b1 (ix2 0 j)) W2 (fun j => b2 (ix2 0 j)) q := by
  rw [lin_apply]
  unfold mlpRow
  congr 1
  funext j
  rw [maximumf_apply, lin_apply, broadcast_apply]
  show max _ (Ideal.ofBits .f32 0x00000000#32) = _
  rw [Ideal.ofBits_zero_f32]
  rfl

/-! ## Columns, feature sums, the inverse root -/

/-- One column spread over the block's features reads, at (p, q), the column at p. -/
private theorem col_bc (c : FVec Ideal S2000x1 .f32) (p : Fin 2000) (q : Fin 128) :
    broadcastTo S2000x128 c broadcasts_S2000x1_S2000x128 (ix2 p q) = c (ix2 p 0) := by
  refine broadcastTo_apply c _ (ix2 p q) (ix2 p (0 : Fin 1)) fun ax => ?_
  match ax with
  | ⟨0, _⟩ => rfl
  | ⟨1, _⟩ => rfl

/-- The feature sum of a block, recast as a column, at (p, u): the sum over the features of row p. -/
private theorem red_apply (v : FVec Ideal S2000x128 .f32) (p : Fin 2000) (u : Fin 1) :
    shapeCast S2000x1
        (multiReduction .add [1] S2000 v 0x00000000#32 reduces_S2000x128_S2000 (.inl rfl) rfl)
        shapeCasts_S2000_S2000x1 (ix2 p u)
      = ∑ k : Fin 128, v (ix2 p k) := by
  refine (shapeCast_apply _ shapeCasts_S2000_S2000x1 (ix2 p u) (ix1 p) ?_).trans ?_
  · have hu : u.val = 0 := by omega
    rw [Shape.rowMajor_val_two, Shape.rowMajor_val_one]
    show p.val = p.val * 1 + u.val
    rw [hu, Nat.mul_one, Nat.add_zero]
  · refine (Ideal.multiReduction_add_single v _ reduces_S2000x128_S2000 _ _ (ix1 p)).trans ?_
    refine Finset.sum_congr rfl fun k _ => congrArg v ?_
    funext a
    match a with
    | ⟨0, _⟩ => exact Fin.ext rfl
    | ⟨1, _⟩ => exact Fin.ext rfl

/-- The inverse root at an index is the inverse root of the entry. -/
private theorem rsqrt_apply {s : Shape} {φ : FTy} (a : FVec Ideal s φ) (i : s.Idx) :
    rsqrt a i = Ideal.rsqrt (a i) := rfl

/-! ## The first normalised layer's intermediate blocks -/

/-- Layer 0's rectified block at (p, q): the rectifier of mlpRow of rows p. -/
private theorem k0_pay2_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay2 x0 x1 x2 x3 x4 x5 (ix2 p q)
      = max (mlpRow (fun k => x0 (ix2 p k)) (fun k => x1 (ix2 p k)) x2 (fun j => x3 (ix2 0 j)) x4 (fun j => x5 (ix2 0 j)) q) 0 := by
  unfold k0_pay2
  rw [shapeCast_self x1, maximumf_apply, mlp_apply, broadcast_apply]
  show max _ (Ideal.ofBits .f32 0x00000000#32) = _
  rw [Ideal.ofBits_zero_f32]

/-- Layer 0's mean column at (p, u): the mean of the rectified row. -/
private theorem k0_pay3_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (u : Fin 1) :
    k0_pay3 x0 x1 x2 x3 x4 x5 (ix2 p u)
      = rowMean (mlpRow (fun k => x0 (ix2 p k)) (fun k => x1 (ix2 p k)) x2 (fun j => x3 (ix2 0 j)) x4 (fun j => x5 (ix2 0 j))) := by
  unfold k0_pay3
  rw [divf_apply, red_apply, broadcast_apply]
  unfold rowMean c128
  exact congrArg (fun s => Ideal.div s _) (Finset.sum_congr rfl fun k _ => k0_pay2_apply x0 x1 x2 x3 x4 x5 p k)

/-- Layer 0's centred block at (p, q): the rectified entry less the row's mean. -/
private theorem k0_pay5_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay5 x0 x1 x2 x3 x4 x5 (ix2 p q)
      = max (mlpRow (fun k => x0 (ix2 p k)) (fun k => x1 (ix2 p k)) x2 (fun j => x3 (ix2 0 j)) x4 (fun j => x5 (ix2 0 j)) q) 0
        - rowMean (mlpRow (fun k => x0 (ix2 p k)) (fun k => x1 (ix2 p k)) x2 (fun j => x3 (ix2 0 j)) x4 (fun j => x5 (ix2 0 j))) := by
  unfold k0_pay5
  rw [subf_apply, col_bc, k0_pay2_apply, k0_pay3_apply]

/-- Layer 0's variance column at (p, u): the variance of the rectified row about its mean. -/
private theorem k0_pay4_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (u : Fin 1) :
    k0_pay4 x0 x1 x2 x3 x4 x5 (ix2 p u)
      = rowVar (mlpRow (fun k => x0 (ix2 p k)) (fun k => x1 (ix2 p k)) x2 (fun j => x3 (ix2 0 j)) x4 (fun j => x5 (ix2 0 j))) := by
  unfold k0_pay4
  rw [divf_apply, red_apply, broadcast_apply]
  unfold rowVar c128
  refine congrArg (fun s => Ideal.div s _) (Finset.sum_congr rfl fun k _ => ?_)
  rw [mulf_apply, subf_apply, col_bc, k0_pay2_apply, k0_pay3_apply]

/-! ## The second normalised layer's intermediate blocks -/

/-- Layer 1's rectified block at (p, q): the rectifier of mlpRow of rows p. -/
private theorem k1_pay2_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k1_pay2 x0 x1 x2 x3 x4 x5 (ix2 p q)
      = max (mlpRow (fun k => x0 (ix2 p k)) (fun k => x1 (ix2 p k)) x2 (fun j => x3 (ix2 0 j)) x4 (fun j => x5 (ix2 0 j)) q) 0 := by
  unfold k1_pay2
  rw [shapeCast_self x0, shapeCast_self x1, maximumf_apply, mlp_apply, broadcast_apply]
  show max _ (Ideal.ofBits .f32 0x00000000#32) = _
  rw [Ideal.ofBits_zero_f32]

/-- Layer 1's mean column at (p, u): the mean of the rectified row. -/
private theorem k1_pay3_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (u : Fin 1) :
    k1_pay3 x0 x1 x2 x3 x4 x5 (ix2 p u)
      = rowMean (mlpRow (fun k => x0 (ix2 p k)) (fun k => x1 (ix2 p k)) x2 (fun j => x3 (ix2 0 j)) x4 (fun j => x5 (ix2 0 j))) := by
  unfold k1_pay3
  rw [divf_apply, red_apply, broadcast_apply]
  unfold rowMean c128
  exact congrArg (fun s => Ideal.div s _) (Finset.sum_congr rfl fun k _ => k1_pay2_apply x0 x1 x2 x3 x4 x5 p k)

/-- Layer 1's centred block at (p, q): the rectified entry less the row's mean. -/
private theorem k1_pay5_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k1_pay5 x0 x1 x2 x3 x4 x5 (ix2 p q)
      = max (mlpRow (fun k => x0 (ix2 p k)) (fun k => x1 (ix2 p k)) x2 (fun j => x3 (ix2 0 j)) x4 (fun j => x5 (ix2 0 j)) q) 0
        - rowMean (mlpRow (fun k => x0 (ix2 p k)) (fun k => x1 (ix2 p k)) x2 (fun j => x3 (ix2 0 j)) x4 (fun j => x5 (ix2 0 j))) := by
  unfold k1_pay5
  rw [subf_apply, col_bc, k1_pay2_apply, k1_pay3_apply]

/-- Layer 1's variance column at (p, u): the variance of the rectified row about its mean. -/
private theorem k1_pay4_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (u : Fin 1) :
    k1_pay4 x0 x1 x2 x3 x4 x5 (ix2 p u)
      = rowVar (mlpRow (fun k => x0 (ix2 p k)) (fun k => x1 (ix2 p k)) x2 (fun j => x3 (ix2 0 j)) x4 (fun j => x5 (ix2 0 j))) := by
  unfold k1_pay4
  rw [divf_apply, red_apply, broadcast_apply]
  unfold rowVar c128
  refine congrArg (fun s => Ideal.div s _) (Finset.sum_congr rfl fun k _ => ?_)
  rw [mulf_apply, subf_apply, col_bc, k1_pay2_apply, k1_pay3_apply]

/-! ## The stored values -/

/-- First normalised layer: the stored value at (p, q). -/
theorem pay0_apply (x0 x1 : Vec Ideal S2000x128 .f32) (x2 : Vec Ideal S128x128 .f32) (x3 : Vec Ideal S1x128 .f32)
    (x4 : Vec Ideal S128x128 .f32) (x5 x6 x7 : Vec Ideal S1x128 .f32) (p : Fin 2000) (q : Fin 128) :
    k0_pay1 (k0_pay4 x0 x1 x2 x3 x4 x5) (k0_pay5 x0 x1 x2 x3 x4 x5) (k0_pay6 (F := Ideal)) x6 x7 (ix2 p q)
      = lnRow (mlpRow (fun k => x0 (ix2 p k)) (fun k => x1 (ix2 p k)) x2 (fun j => x3 (ix2 0 j)) x4 (fun j => x5 (ix2 0 j)))
          (fun j => x6 (ix2 0 j)) (fun j => x7 (ix2 0 j)) q := by
  unfold k0_pay1
  rw [addf_apply, mulf_apply, mulf_apply, row_bc, row_bc, col_bc, rsqrt_apply, addf_apply,
    k0_pay4_apply, k0_pay5_apply]
  unfold k0_pay6
  rw [broadcast_apply]
  unfold lnRow cEps
  rfl

/-- Second normalised layer: the stored value at (p, q). -/
theorem pay1_apply (x0 x1 : Vec Ideal S2000x128 .f32) (x2 : Vec Ideal S128x128 .f32) (x3 : Vec Ideal S1x128 .f32)
    (x4 : Vec Ideal S128x128 .f32) (x5 x6 x7 : Vec Ideal S1x128 .f32) (p : Fin 2000) (q : Fin 128) :
    k1_pay1 (k1_pay4 x0 x1 x2 x3 x4 x5) (k1_pay5 x0 x1 x2 x3 x4 x5) (Scalar.ofBits (F := Ideal) .f32 0x3727C5AC#32) x6 x7 (ix2 p q)
      = lnRow (mlpRow (fun k => x0 (ix2 p k)) (fun k => x1 (ix2 p k)) x2 (fun j => x3 (ix2 0 j)) x4 (fun j => x5 (ix2 0 j)))
          (fun j => x6 (ix2 0 j)) (fun j => x7 (ix2 0 j)) q := by
  unfold k1_pay1
  rw [addf_apply, mulf_apply, mulf_apply, row_bc, row_bc, col_bc, rsqrt_apply, addf_apply,
    k1_pay4_apply, k1_pay5_apply, broadcast_apply]
  unfold lnRow cEps
  rfl

/-- Last layer (no normalisation): the stored value at (p, q). -/
theorem pay2_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k2_pay1 x0 x1 x2 x3 x4 x5 (ix2 p q)
      = mlpRow (fun k => x0 (ix2 p k)) (fun k => x1 (ix2 p k)) x2 (fun j => x3 (ix2 0 j)) x4 (fun j => x5 (ix2 0 j)) q := by
  unfold k2_pay1
  rw [shapeCast_self x0, shapeCast_self x1]
  exact mlp_apply x0 x1 x2 x3 x4 x5 p q

end Cert.Gin.Pay

end
-- ==== Proof.Region0.lean ====
/-
  The first pallas_call's output array, whatever the buffers hold when it is entered: the 25 grid points
  each write back rows [2000 t, 2000 t + 2000) of the output, computed from the same rows of the two
  node tables and the whole weight tables; the blocks tile the 50000 rows, so the array after the call
  is, row by row, the spec's normalised layer of the entry arrays.
-/
import proofs.«421258_j1958505087002_1_alg».proof.Proof.Gen.KernelIdeal.Frame
import proofs.«421258_j1958505087002_1_alg».proof.Proof.Spec
import proofs.«421258_j1958505087002_1_alg».proof.Proof.PayRows
import Idealize.ShloMosaic.Lib.Pipeline.Value

set_option maxRecDepth 16384

noncomputable section

open scoped BigOperators

namespace Cert.Gin.Reg

open Idealize.ShloMosaic Idealize.ShloMosaic.TcCoe Idealize.ShloMosaic.ValueIdx Idealize.SL.Sem
open Cert.KernelIdeal Cert.KernelIdeal.Gen Cert.Gin

variable (V : (c : Dev nD) → (b : Ref sig .tc) → Buf (Elt Ideal) ((c : Thread nD τ).loc b))

/-- The zero offsets of a whole-buffer rectangle, as the constant function. -/
private theorem hz0 : (![0, 0] : Fin 2 → Nat) = fun _ => 0 := funext fun a => by fin_cases a <;> rfl

/-- The windows' block indices at each of the 25 points: the three node-row windows sit at block (t, 0), the
    weight and offset windows at block (0, 0). -/
private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The layer of the entry arrays: what the output array ends holding. -/
private abbrev layer0 (c : Dev nD) : A2 50000 128 :=
  layerLn (V c main_arg0) (V c main_v9) (V c main_arg4) (fun j => V c main_v10 (ix2 0 j)) (V c main_arg6)
    (fun j => V c main_v11 (ix2 0 j)) (fun j => V c main_v12 (ix2 0 j)) (fun j => V c main_v13 (ix2 0 j))

/-- The layer at an index whose row is r and whose feature is q: the row function of row r of the two tables. -/
private theorem layer_at0 (X A : A2 50000 128) (W1 : A2 128 128) (b1 : Fin 128 → EReal) (W2 : A2 128 128)
    (b2 g b : Fin 128 → EReal) (i : (⟨2, ![50000, 128]⟩ : Shape).Idx) (r : Fin 50000) (q : Fin 128)
    (h0 : i 0 = r) (h1 : i 1 = q) :
    layerLn X A W1 b1 W2 b2 g b i
      = lnRow (mlpRow (fun k => X (ix2 r k)) (fun k => A (ix2 r k)) W1 b1 W2 b2) g b q := by
  show lnRow (mlpRow (fun k => X (ix2 (i 0) k)) (fun k => A (ix2 (i 0) k)) W1 b1 W2 b2) g b (i 1) = _
  rw [h0, h1]

/-- The row function of equal rows, tables and offset rows is equal. -/
private theorem row_congr0 {x x' a a' : Fin 128 → EReal} {W1 W1' : A2 128 128} {b1 b1' : Fin 128 → EReal}
    {W2 W2' : A2 128 128} {b2 b2' g g' b b' : Fin 128 → EReal} (hx : x = x') (ha : a = a') (hW1 : W1 = W1')
    (hb1 : b1 = b1') (hW2 : W2 = W2') (hb2 : b2 = b2') (hg : g = g') (hb : b = b') (q : Fin 128) :
    lnRow (mlpRow x a W1 b1 W2 b2) g b q = lnRow (mlpRow x' a' W1' b1' W2' b2') g' b' q := by
  subst hx ha hW1 hb1 hW2 hb2 hg hb; rfl

/-- What point t writes back is block t of the layer of the entry arrays. -/
private theorem flushed_eq0 (c : Dev nD) (t : Fin cfg0.N) :
    (dat0 V c).flushed 8 t = ((cfg0.win 8).blk t).view.read (Elt Ideal) (layer0 V c) := by
  show (cfg0.win 8).cut (grid0.coords t) ((dat0 V c).after 8 t) = _
  rw [after0_8]
  unfold out0_8
  rw [View.canon_unit_zero hz0]
  simp only [View.ld_unit_zero (S := S2000x128) hz0, View.ld_unit_zero (S := S128x128) hz0, View.ld_unit_zero (S := S1x128) hz0]
  funext j
  obtain ⟨p, q, rfl⟩ : ∃ (p : Fin 2000) (q : Fin 128), j = ix2 p q := ⟨j 0, j 1, eq_ix2 j⟩
  refine (Pay.pay0_apply _ _ _ _ _ _ _ _ p q).trans ?_
  obtain ⟨e00, e01, e10, e11, e20, e21, e30, e31, e40, e41, e50, e51, e60, e61, e70, e71, e80, e81⟩ := idx_facts0 t
  have hp : p.val < 2000 := p.isLt
  have ht : t.val < 25 := lt_of_lt_of_eq t.isLt N_0
  rw [View.read_apply]
  refine Eq.trans ?_ (layer_at0 _ _ _ _ _ _ _ _ _ ⟨t.val * 2000 + p.val, by omega⟩ q (Fin.ext ?_) (Fin.ext ?_)).symm
  · have hr0 : (fun k : Fin 128 => iblk0 V c 0 t (ix2 p k))
        = fun k => V c main_arg0 (ix2 (⟨t.val * 2000 + p.val, by omega⟩ : Fin 50000) k) := by
      funext k
      show V c main_arg0 (((cfg0.win 0).blk t).view.emb (ix2 p k)) = _
      refine congrArg (V c main_arg0) (funext fun a => Fin.ext ?_)
      match a with
      | ⟨0, _⟩ => show win0_0.index t (0 : Fin 2) * 2000 + 1 * p.val = t.val * 2000 + p.val; omega
      | ⟨1, _⟩ => show win0_0.index t (1 : Fin 2) * 128 + 1 * k.val = k.val; omega
    have hr1 : (fun k : Fin 128 => iblk0 V c 1 t (ix2 p k))
        = fun k => V c main_v9 (ix2 (⟨t.val * 2000 + p.val, by omega⟩ : Fin 50000) k) := by
      funext k
      show V c main_v9 (((cfg0.win 1).blk t).view.emb (ix2 p k)) = _
      refine congrArg (V c main_v9) (funext fun a => Fin.ext ?_)
      match a with
      | ⟨0, _⟩ => show win0_1.index t (0 : Fin 2) * 2000 + 1 * p.val = t.val * 2000 + p.val; omega
      | ⟨1, _⟩ => show win0_1.index t (1 : Fin 2) * 128 + 1 * k.val = k.val; omega
    have hw2 : iblk0 V c 2 t = V c main_arg4 := by
      funext y
      show V c main_arg4 (((cfg0.win 2).blk t).view.emb y) = _
      refine congrArg (V c main_arg4) (funext fun a => Fin.ext ?_)
      match a with
      | ⟨0, _⟩ => show win0_2.index t (0 : Fin 2) * 128 + 1 * (y 0).val = (y 0).val; omega
      | ⟨1, _⟩ => show win0_2.index t (1 : Fin 2) * 128 + 1 * (y 1).val = (y 1).val; omega
    have hw3 : iblk0 V c 3 t = V c main_v10 := by
      funext y
      show V c main_v10 (((cfg0.win 3).blk t).view.emb y) = _
      refine congrArg (V c main_v10) (funext fun a => Fin.ext ?_)
      match a with
      | ⟨0, _⟩ => show win0_3.index t (0 : Fin 2) * 1 + 1 * (y 0).val = (y 0).val; omega
      | ⟨1, _⟩ => show win0_3.index t (1 : Fin 2) * 128 + 1 * (y 1).val = (y 1).val; omega
    have hw4 : iblk0 V c 4 t = V c main_arg6 := by
      funext y
      show V c main_arg6 (((cfg0.win 4).blk t).view.emb y) = _
      refine congrArg (V c main_arg6) (funext fun a => Fin.ext ?_)
      match a with
      | ⟨0, _⟩ => show win0_4.index t (0 : Fin 2) * 128 + 1 * (y 0).val = (y 0).val; omega
      | ⟨1, _⟩ => show win0_4.index t (1 : Fin 2) * 128 + 1 * (y 1).val = (y 1).val; omega
    have hw5 : iblk0 V c 5 t = V c main_v11 := by
      funext y
      show V c main_v11 (((cfg0.win 5).blk t).view.emb y) = _
      refine congrArg (V c main_v11) (funext fun a => Fin.ext ?_)
      match a with
      | ⟨0, _⟩ => show win0_5.index t (0 : Fin 2) * 1 + 1 * (y 0).val = (y 0).val; omega
      | ⟨1, _⟩ => show win0_5.index t (1 : Fin 2) * 128 + 1 * (y 1).val = (y 1).val; omega
    have hw6 : iblk0 V c 6 t = V c main_v12 := by
      funext y
      show V c main_v12 (((cfg0.win 6).blk t).view.emb y) = _
      refine congrArg (V c main_v12) (funext fun a => Fin.ext ?_)
      match a with
      | ⟨0, _⟩ => show win0_6.index t (0 : Fin 2) * 1 + 1 * (y 0).val = (y 0).val; omega
      | ⟨1, _⟩ => show win0_6.index t (1 : Fin 2) * 128 + 1 * (y 1).val = (y 1).val; omega
    have hw7 : iblk0 V c 7 t = V c main_v13 := by
      funext y
      show V c main_v13 (((cfg0.win 7).blk t).view.emb y) = _
      refine congrArg (V c main_v13) (funext fun a => Fin.ext ?_)
      match a with
      | ⟨0, _⟩ => show win0_7.index t (0 : Fin 2) * 1 + 1 * (y 0).val = (y 0).val; omega
      | ⟨1, _⟩ => show win0_7.index t (1 : Fin 2) * 128 + 1 * (y 1).val = (y 1).val; omega
    exact row_congr0 hr0 hr1 hw2 (funext fun j => congrFun hw3 (ix2 0 j)) hw4 (funext fun j => congrFun hw5 (ix2 0 j))
      (funext fun j => congrFun hw6 (ix2 0 j)) (funext fun j => congrFun hw7 (ix2 0 j)) q
  · show win0_8.index t (0 : Fin 2) * 2000 + 1 * p.val = t.val * 2000 + p.val; omega
  · show win0_8.index t (1 : Fin 2) * 128 + 1 * q.val = q.val; omega

/-- An index of the array is in point t's block iff each coordinate is in the block's range on its axis. -/
private theorem mem_blk0 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v14).slice (win0_8.rect t)).set ↔ _
  rw [View.set_slice_whole, Rect.mem_set_unit]
  exact Iff.rfl

/-- Row r lies in the block of point r / 2000: the 25 blocks of 2000 rows tile the 50000 rows. -/
private theorem rows_cover0 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨e00, e01, e10, e11, e20, e21, e30, e31, e40, e41, e50, e51, e60, e61, e70, e71, e80, e81⟩ := idx_facts0 t
  refine ⟨t, flush0_8 t, ?_⟩
  rw [mem_blk0]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- The node table the first normalised layer leaves: every row the spec's layer of the entry arrays. -/
theorem region0_arr (c : Dev nD) :
    (dat0 V c).arrAt 8 cfg0.N
      = layerLn (V c main_arg0) (V c main_v9) (V c main_arg4) (fun j => V c main_v10 (ix2 0 j)) (V c main_arg6)
          (fun j => V c main_v11 (ix2 0 j)) (fun j => V c main_v12 (ix2 0 j)) (fun j => V c main_v13 (ix2 0 j)) :=
  (dat0 V c).arrAt_eq_of_cover 8 (layer0 V c) (fun t _ => flushed_eq0 V c t) rows_cover0

end Cert.Gin.Reg

end
-- ==== Proof.Region1.lean ====
/-
  The second pallas_call's output array, whatever the buffers hold when it is entered: the same
  tiling of the 50000 rows by 25 blocks of 2000, each block the spec's normalised layer of the same
  rows of the entry arrays.
-/
import proofs.«421258_j1958505087002_1_alg».proof.Proof.Gen.KernelIdeal.Frame
import proofs.«421258_j1958505087002_1_alg».proof.Proof.Spec
import proofs.«421258_j1958505087002_1_alg».proof.Proof.PayRows
import Idealize.ShloMosaic.Lib.Pipeline.Value

set_option maxRecDepth 16384

noncomputable section

open scoped BigOperators

namespace Cert.Gin.Reg

open Idealize.ShloMosaic Idealize.ShloMosaic.TcCoe Idealize.ShloMosaic.ValueIdx Idealize.SL.Sem
open Cert.KernelIdeal Cert.KernelIdeal.Gen Cert.Gin

variable (V : (c : Dev nD) → (b : Ref sig .tc) → Buf (Elt Ideal) ((c : Thread nD τ).loc b))

/-- The block rectangles start at the origin on both axes. -/
private theorem zeroOff : (![0, 0] : Fin 2 → Nat) = fun _ => 0 := funext fun a => by fin_cases a <;> rfl

/-- The index maps over the 25 grid points: the three node-row windows are at block (t, 0), the two weight
    tables and the four offset, gain and shift rows at block (0, 0) at every point. -/
private theorem idxFacts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_8.index t (0 : Fin 2) = t.val
    ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- One stored entry as the spec's normalised layer: when row p of the two node blocks is row r of the node
    arrays and the weight, offset, gain and shift blocks are the whole arrays, the value stored at (p, q) is the
    layer's entry (r, q). The row function depends on its arguments only through these reads, so equal reads
    give equal values. -/
private theorem rowLaw (X A : A2 50000 128) (W1 W2 : A2 128 128) (b1 b2 g b : A2 1 128) (r : Fin 50000) (q : Fin 128)
    (x0 x1 : Vec Ideal S2000x128 .f32) (x2 x4 : Vec Ideal S128x128 .f32) (x3 x5 x6 x7 : Vec Ideal S1x128 .f32) (p : Fin 2000)
    (h0 : ∀ k, x0 (ix2 p k) = X (ix2 r k)) (h1 : ∀ k, x1 (ix2 p k) = A (ix2 r k))
    (h2 : ∀ y, x2 y = W1 y) (h3 : ∀ y, x3 y = b1 y) (h4 : ∀ y, x4 y = W2 y) (h5 : ∀ y, x5 y = b2 y)
    (h6 : ∀ y, x6 y = g y) (h7 : ∀ y, x7 y = b y) :
    k1_pay1 (k1_pay4 x0 x1 x2 x3 x4 x5) (k1_pay5 x0 x1 x2 x3 x4 x5) (Scalar.ofBits (F := Ideal) .f32 0x3727C5AC#32) x6 x7 (ix2 p q)
      = layerLn X A W1 (fun j => b1 (ix2 0 j)) W2 (fun j => b2 (ix2 0 j)) (fun j => g (ix2 0 j)) (fun j => b (ix2 0 j)) (ix2 r q) := by
  refine (Pay.pay1_apply x0 x1 x2 x3 x4 x5 x6 x7 p q).trans ?_
  have e0 : (fun k => x0 (ix2 p k)) = fun k => X (ix2 r k) := funext h0
  have e1 : (fun k => x1 (ix2 p k)) = fun k => A (ix2 r k) := funext h1
  have e2 : x2 = W1 := funext h2
  have e3 : (fun j => x3 (ix2 0 j)) = fun j => b1 (ix2 0 j) := funext fun j => h3 _
  have e4 : x4 = W2 := funext h4
  have e5 : (fun j => x5 (ix2 0 j)) = fun j => b2 (ix2 0 j) := funext fun j => h5 _
  have e6 : (fun j => x6 (ix2 0 j)) = fun j => g (ix2 0 j) := funext fun j => h6 _
  have e7 : (fun j => x7 (ix2 0 j)) = fun j => b (ix2 0 j) := funext fun j => h7 _
  show lnRow (mlpRow (fun k => x0 (ix2 p k)) (fun k => x1 (ix2 p k)) x2 (fun j => x3 (ix2 0 j)) x4 (fun j => x5 (ix2 0 j)))
      (fun j => x6 (ix2 0 j)) (fun j => x7 (ix2 0 j)) q
    = lnRow (mlpRow (fun k => X (ix2 r k)) (fun k => A (ix2 r k)) W1 (fun j => b1 (ix2 0 j)) W2 (fun j => b2 (ix2 0 j)))
      (fun j => g (ix2 0 j)) (fun j => b (ix2 0 j)) q
  rw [e0, e1, e2, e3, e4, e5, e6, e7]

/-- Window 0 at point t: local row p is row 2000 t + p of its array, the feature coordinate unchanged. -/
private theorem rowBlock0 (c : Dev nD) (t : Fin cfg1.N) (p : Fin 2000) (k : Fin 128) (h : t.val * 2000 + p.val < 50000) :
    iblk1 V c 0 t (ix2 p k) = V c main_v14 (ix2 (⟨t.val * 2000 + p.val, h⟩ : Fin 50000) k) := by
  obtain ⟨e00, e01, e10, e11, -⟩ := idxFacts t
  show V c main_v14 (((cfg1.win 0).blk t).view.emb (ix2 p k)) = V c main_v14 (ix2 ⟨t.val * 2000 + p.val, h⟩ k)
  refine congrArg (V c main_v14) ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- Window 1 at point t: local row p is row 2000 t + p of its array, the feature coordinate unchanged. -/
private theorem rowBlock1 (c : Dev nD) (t : Fin cfg1.N) (p : Fin 2000) (k : Fin 128) (h : t.val * 2000 + p.val < 50000) :
    iblk1 V c 1 t (ix2 p k) = V c main_v24 (ix2 (⟨t.val * 2000 + p.val, h⟩ : Fin 50000) k) := by
  obtain ⟨e00, e01, e10, e11, -⟩ := idxFacts t
  show V c main_v24 (((cfg1.win 1).blk t).view.emb (ix2 p k)) = V c main_v24 (ix2 ⟨t.val * 2000 + p.val, h⟩ k)
  refine congrArg (V c main_v24) ?_
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2 holds its whole array at every point (block index 0 on both axes). -/
private theorem wholeBlock2 (c : Dev nD) (t : Fin cfg1.N) (y : S128x128.Idx) :
    iblk1 V c 2 t y = V c main_arg8 y := by
  obtain ⟨-, -, -, -, -, -, e20, e21, e30, e31, e40, e41, e50, e51, e60, e61, e70, e71⟩ := idxFacts t
  show V c main_arg8 (((cfg1.win 2).blk t).view.emb y) = V c main_arg8 y
  refine congrArg (V c main_arg8) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 holds its whole array at every point (block index 0 on both axes). -/
private theorem wholeBlock3 (c : Dev nD) (t : Fin cfg1.N) (y : S1x128.Idx) :
    iblk1 V c 3 t y = V c main_v25 y := by
  obtain ⟨-, -, -, -, -, -, e20, e21, e30, e31, e40, e41, e50, e51, e60, e61, e70, e71⟩ := idxFacts t
  show V c main_v25 (((cfg1.win 3).blk t).view.emb y) = V c main_v25 y
  refine congrArg (V c main_v25) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 holds its whole array at every point (block index 0 on both axes). -/
private theorem wholeBlock4 (c : Dev nD) (t : Fin cfg1.N) (y : S128x128.Idx) :
    iblk1 V c 4 t y = V c main_arg10 y := by
  obtain ⟨-, -, -, -, -, -, e20, e21, e30, e31, e40, e41, e50, e51, e60, e61, e70, e71⟩ := idxFacts t
  show V c main_arg10 (((cfg1.win 4).blk t).view.emb y) = V c main_arg10 y
  refine congrArg (V c main_arg10) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5 holds its whole array at every point (block index 0 on both axes). -/
private theorem wholeBlock5 (c : Dev nD) (t : Fin cfg1.N) (y : S1x128.Idx) :
    iblk1 V c 5 t y = V c main_v26 y := by
  obtain ⟨-, -, -, -, -, -, e20, e21, e30, e31, e40, e41, e50, e51, e60, e61, e70, e71⟩ := idxFacts t
  show V c main_v26 (((cfg1.win 5).blk t).view.emb y) = V c main_v26 y
  refine congrArg (V c main_v26) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 holds its whole array at every point (block index 0 on both axes). -/
private theorem wholeBlock6 (c : Dev nD) (t : Fin cfg1.N) (y : S1x128.Idx) :
    iblk1 V c 6 t y = V c main_v27 y := by
  obtain ⟨-, -, -, -, -, -, e20, e21, e30, e31, e40, e41, e50, e51, e60, e61, e70, e71⟩ := idxFacts t
  show V c main_v27 (((cfg1.win 6).blk t).view.emb y) = V c main_v27 y
  refine congrArg (V c main_v27) ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 holds its whole array at every point (block index 0 on both axes). -/
private theorem wholeBlock7 (c : Dev nD) (t : Fin cfg1.N) (y : S1x128.Idx) :
    iblk1 V c 7 t y = V c main_v28 y := by
  obtain ⟨-, -, -, -, -, -, e20, e21, e30, e31, e40, e41, e50, e51, e60, e61, e70, e71⟩ := idxFacts t
  show V c main_v28 (((cfg1.win 7).blk t).view.emb y) = V c main_v28 y
  refine congrArg (V c main_v28) ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- What point t writes back is block t of the layer of the entry arrays: local row p of point t is row
    2000 t + p of the node arrays (block coordinate = block index × 2000 + 1 × local row; the feature axis has one
    block), and the weight, offset, gain and shift windows hold their whole arrays (block index 0 on both axes). -/
private theorem flushedRows (c : Dev nD) (t : Fin cfg1.N) :
    (dat1 V c).flushed 8 t = ((cfg1.win 8).blk t).view.read (Elt Ideal)
      (layerLn (V c main_v14) (V c main_v24) (V c main_arg8) (fun j => V c main_v25 (ix2 0 j)) (V c main_arg10)
          (fun j => V c main_v26 (ix2 0 j)) (fun j => V c main_v27 (ix2 0 j)) (fun j => V c main_v28 (ix2 0 j))) := by
  show (cfg1.win 8).cut (grid1.coords t) ((dat1 V c).after 8 t) = _
  rw [after1_8]
  unfold out1_8
  rw [View.canon_unit_zero zeroOff]
  simp only [View.ld_unit_zero (S := S2000x128) zeroOff, View.ld_unit_zero (S := S128x128) zeroOff, View.ld_unit_zero (S := S1x128) zeroOff]
  obtain ⟨-, -, -, -, e80, e81, -⟩ := idxFacts t
  have ht : t.val < 25 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  show k1_pay1 (k1_pay4 (iblk1 V c 0 t) (iblk1 V c 1 t) (iblk1 V c 2 t) (iblk1 V c 3 t) (iblk1 V c 4 t) (iblk1 V c 5 t))
      (k1_pay5 (iblk1 V c 0 t) (iblk1 V c 1 t) (iblk1 V c 2 t) (iblk1 V c 3 t) (iblk1 V c 4 t) (iblk1 V c 5 t))
      (Scalar.ofBits (F := Ideal) .f32 0x3727C5AC#32) (iblk1 V c 6 t) (iblk1 V c 7 t) (ix2 p q)
    = layerLn (V c main_v14) (V c main_v24) (V c main_arg8) (fun j => V c main_v25 (ix2 0 j)) (V c main_arg10)
          (fun j => V c main_v26 (ix2 0 j)) (fun j => V c main_v27 (ix2 0 j)) (fun j => V c main_v28 (ix2 0 j))
          (((cfg1.win 8).blk t).view.emb (ix2 p q))
  have hi : ((cfg1.win 8).blk t).view.emb (ix2 p q) = ix2 (⟨t.val * 2000 + p.val, by omega⟩ : Fin 50000) q := by
    funext a; apply Fin.ext
    match a with
    | ⟨0, _⟩ => show win1_8.index t (0 : Fin 2) * 2000 + 1 * p.val = t.val * 2000 + p.val; omega
    | ⟨1, _⟩ => show win1_8.index t (1 : Fin 2) * 128 + 1 * q.val = q.val; omega
  rw [hi]
  exact rowLaw (V c main_v14) (V c main_v24) (V c main_arg8) (V c main_arg10) (V c main_v25) (V c main_v26) (V c main_v27) (V c main_v28)
    ⟨t.val * 2000 + p.val, by omega⟩ q (iblk1 V c 0 t) (iblk1 V c 1 t) (iblk1 V c 2 t) (iblk1 V c 4 t)
    (iblk1 V c 3 t) (iblk1 V c 5 t) (iblk1 V c 6 t) (iblk1 V c 7 t) p
    (fun k => rowBlock0 V c t p k _) (fun k => rowBlock1 V c t p k _) (wholeBlock2 V c t) (wholeBlock3 V c t)
    (wholeBlock4 V c t) (wholeBlock5 V c t) (wholeBlock6 V c t) (wholeBlock7 V c t)

/-- An index of the output array is in point t's block iff each coordinate is in the block's range on its axis. -/
private theorem memBlock (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v29).slice (win1_8.rect t)).set ↔ _
  rw [View.set_slice_whole, Rect.mem_set_unit]
  exact Iff.rfl

/-- The 25 blocks of 2000 rows tile the 50000 rows: row r is in the block of point r / 2000, since
    (r / 2000) · 2000 ≤ r < (r / 2000) · 2000 + 2000 and r < 50000 gives r / 2000 < 25; every point writes back. -/
private theorem rowsCovered (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : (i 0).val / 2000 < cfg1.N := lt_of_lt_of_eq (by omega : (i 0).val / 2000 < 25) N_1.symm
  refine ⟨⟨(i 0).val / 2000, hN⟩, flush1_8 _, ?_⟩
  obtain ⟨-, -, -, -, e80, e81, -⟩ := idxFacts ⟨(i 0).val / 2000, hN⟩
  rw [memBlock]
  intro a
  match a with
  | ⟨0, _⟩ => show win1_8.index ⟨(i 0).val / 2000, hN⟩ (0 : Fin 2) * 2000 ≤ (i 0).val ∧ (i 0).val < win1_8.index ⟨(i 0).val / 2000, hN⟩ (0 : Fin 2) * 2000 + 2000; rw [e80]; show (i 0).val / 2000 * 2000 ≤ (i 0).val ∧ (i 0).val < (i 0).val / 2000 * 2000 + 2000; omega
  | ⟨1, _⟩ => show win1_8.index ⟨(i 0).val / 2000, hN⟩ (1 : Fin 2) * 128 ≤ (i 1).val ∧ (i 1).val < win1_8.index ⟨(i 0).val / 2000, hN⟩ (1 : Fin 2) * 128 + 128; omega

/-- The node table the second normalised layer leaves: every row the spec's layer of the entry arrays. -/
theorem region1_arr (c : Dev nD) :
    (dat1 V c).arrAt 8 cfg1.N
      = layerLn (V c main_v14) (V c main_v24) (V c main_arg8) (fun j => V c main_v25 (ix2 0 j)) (V c main_arg10)
          (fun j => V c main_v26 (ix2 0 j)) (fun j => V c main_v27 (ix2 0 j)) (fun j => V c main_v28 (ix2 0 j)) :=
  (dat1 V c).arrAt_eq_of_cover 8 _ (fun t _ => flushedRows V c t) rowsCovered

end Cert.Gin.Reg

end
-- ==== Proof.Region2.lean ====
/-
  The third pallas_call's output array (the node embedding), whatever the buffers hold when it is
  entered: 25 blocks of 2000 rows, each the spec's un-normalised layer of the same rows of the entry arrays.

  Each grid point t reads rows [2000 t, 2000 t + 2000) of the two node arrays and the whole of the two weight
  tables and the two offset rows, and writes back the same rows of the output. The value stored at local
  (p, q) is the spec's row function of row 2000 t + p; the blocks tile the array, so the array ends as the layer.
-/
import proofs.«421258_j1958505087002_1_alg».proof.Proof.Gen.KernelIdeal.Frame
import proofs.«421258_j1958505087002_1_alg».proof.Proof.Spec
import proofs.«421258_j1958505087002_1_alg».proof.Proof.PayRows
import Idealize.ShloMosaic.Lib.Pipeline.Value

set_option maxRecDepth 16384

noncomputable section

open scoped BigOperators

namespace Cert.Gin.Reg

open Idealize.ShloMosaic Idealize.ShloMosaic.TcCoe Idealize.ShloMosaic.ValueIdx Idealize.SL.Sem
open Cert.KernelIdeal Cert.KernelIdeal.Gen Cert.Gin

variable (V : (c : Dev nD) → (b : Ref sig .tc) → Buf (Elt Ideal) ((c : Thread nD τ).loc b))

/-- The block rectangles start at the origin on both axes. -/
private theorem zeroOff : (![0, 0] : Fin 2 → Nat) = fun _ => 0 := funext fun a => by fin_cases a <;> rfl

/-- The index maps over the 25 grid points: the three node-row windows are at block (t, 0), the two weight
    tables and the two offset rows at block (0, 0) at every point. -/
private theorem idxFacts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_6.index t (0 : Fin 2) = t.val
    ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- One stored entry as the spec's layer: when row p of the two node blocks is row r of the node arrays and the
    weight and offset blocks are the whole weight and offset arrays, the value stored at (p, q) is the layer's
    entry (r, q). The row function depends on its arguments only through these reads, so equal reads give equal values. -/
private theorem rowLaw (X A : A2 50000 128) (W1 W2 : A2 128 128) (b1 b2 : A2 1 128) (r : Fin 50000) (q : Fin 128)
    (x0 x1 : Vec Ideal S2000x128 .f32) (x2 x4 : Vec Ideal S128x128 .f32) (x3 x5 : Vec Ideal S1x128 .f32) (p : Fin 2000)
    (h0 : ∀ k, x0 (ix2 p k) = X (ix2 r k)) (h1 : ∀ k, x1 (ix2 p k) = A (ix2 r k))
    (h2 : ∀ y, x2 y = W1 y) (h3 : ∀ y, x3 y = b1 y) (h4 : ∀ y, x4 y = W2 y) (h5 : ∀ y, x5 y = b2 y) :
    k2_pay1 x0 x1 x2 x3 x4 x5 (ix2 p q)
      = layerMlp X A W1 (fun j => b1 (ix2 0 j)) W2 (fun j => b2 (ix2 0 j)) (ix2 r q) := by
  refine (Pay.pay2_apply x0 x1 x2 x3 x4 x5 p q).trans ?_
  have e0 : (fun k => x0 (ix2 p k)) = fun k => X (ix2 r k) := funext h0
  have e1 : (fun k => x1 (ix2 p k)) = fun k => A (ix2 r k) := funext h1
  have e2 : x2 = W1 := funext h2
  have e3 : (fun j => x3 (ix2 0 j)) = fun j => b1 (ix2 0 j) := funext fun j => h3 _
  have e4 : x4 = W2 := funext h4
  have e5 : (fun j => x5 (ix2 0 j)) = fun j => b2 (ix2 0 j) := funext fun j => h5 _
  show mlpRow (fun k => x0 (ix2 p k)) (fun k => x1 (ix2 p k)) x2 (fun j => x3 (ix2 0 j)) x4 (fun j => x5 (ix2 0 j)) q
    = mlpRow (fun k => X (ix2 r k)) (fun k => A (ix2 r k)) W1 (fun j => b1 (ix2 0 j)) W2 (fun j => b2 (ix2 0 j)) q
  rw [e0, e1, e2, e3, e4, e5]

/-- What point t writes back is block t of the layer of the entry arrays: local row p of point t is row
    2000 t + p of the node arrays (block coordinate = block index × 2000 + 1 × local row; the feature axis has one
    block), and the weight and offset windows hold their whole arrays (block index 0 on both axes). -/
private theorem flushedRows (c : Dev nD) (t : Fin cfg2.N) :
    (dat2 V c).flushed 6 t = ((cfg2.win 6).blk t).view.read (Elt Ideal)
      (layerMlp (V c main_v29) (V c main_v39) (V c main_arg12) (fun j => V c main_v40 (ix2 0 j)) (V c main_arg14)
          (fun j => V c main_v41 (ix2 0 j))) := by
  show (cfg2.win 6).cut (grid2.coords t) ((dat2 V c).after 6 t) = _
  rw [after2_6]
  unfold out2_6
  rw [View.canon_unit_zero zeroOff]
  simp only [View.ld_unit_zero (S := S2000x128) zeroOff, View.ld_unit_zero (S := S128x128) zeroOff, View.ld_unit_zero (S := S1x128) zeroOff]
  obtain ⟨e00, e01, e10, e11, e60, e61, e20, e21, e30, e31, e40, e41, e50, e51⟩ := idxFacts t
  have ht : t.val < 25 := lt_of_lt_of_eq t.isLt N_2
  funext j
  obtain ⟨p, q, rfl⟩ : ∃ (p : Fin 2000) (q : Fin 128), j = ix2 p q := ⟨j 0, j 1, eq_ix2 j⟩
  have hp : p.val < 2000 := p.isLt
  show k2_pay1 (iblk2 V c 0 t) (iblk2 V c 1 t) (iblk2 V c 2 t) (iblk2 V c 3 t) (iblk2 V c 4 t) (iblk2 V c 5 t) (ix2 p q)
    = layerMlp (V c main_v29) (V c main_v39) (V c main_arg12) (fun j => V c main_v40 (ix2 0 j)) (V c main_arg14)
          (fun j => V c main_v41 (ix2 0 j)) (((cfg2.win 6).blk t).view.emb (ix2 p q))
  have hi : ((cfg2.win 6).blk t).view.emb (ix2 p q) = ix2 (⟨t.val * 2000 + p.val, by omega⟩ : Fin 50000) q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  rw [hi]
  refine rowLaw (V c main_v29) (V c main_v39) (V c main_arg12) (V c main_arg14) (V c main_v40) (V c main_v41)
    ⟨t.val * 2000 + p.val, by omega⟩ q (iblk2 V c 0 t) (iblk2 V c 1 t) (iblk2 V c 2 t) (iblk2 V c 4 t) (iblk2 V c 3 t) (iblk2 V c 5 t) p
    ?_ ?_ ?_ ?_ ?_ ?_
  · intro k
    show V c main_v29 (((cfg2.win 0).blk t).view.emb (ix2 p k)) = V c main_v29 (ix2 ⟨t.val * 2000 + p.val, by omega⟩ k)
    refine congrArg (V c main_v29) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    show V c main_v39 (((cfg2.win 1).blk t).view.emb (ix2 p k)) = V c main_v39 (ix2 ⟨t.val * 2000 + p.val, by omega⟩ k)
    refine congrArg (V c main_v39) ?_
    funext a; apply Fin.ext
    match a with
    | ⟨0, _⟩ => show win2_1.index t (0 : Fin 2) * 2000 + 1 * p.val = t.val * 2000 + p.val; omega
    | ⟨1, _⟩ => show win2_1.index t (1 : Fin 2) * 128 + 1 * k.val = k.val; omega
  · intro y
    show V c main_arg12 (((cfg2.win 2).blk t).view.emb y) = V c main_arg12 y
    refine congrArg (V c main_arg12) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  · intro y
    show V c main_v40 (((cfg2.win 3).blk t).view.emb y) = V c main_v40 y
    refine congrArg (V c main_v40) ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · intro y
    show V c main_arg14 (((cfg2.win 4).blk t).view.emb y) = V c main_arg14 y
    refine congrArg (V c main_arg14) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · intro y
    show V c main_v41 (((cfg2.win 5).blk t).view.emb y) = V c main_v41 y
    refine congrArg (V c main_v41) ?_
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega

/-- An index of the output array is in point t's block iff each coordinate is in the block's range on its axis. -/
private theorem memBlock (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v42).slice (win2_6.rect t)).set ↔ _
  rw [View.set_slice_whole, Rect.mem_set_unit]
  exact Iff.rfl

/-- The 25 blocks of 2000 rows tile the 50000 rows: row r is in the block of point r / 2000, since
    (r / 2000) · 2000 ≤ r < (r / 2000) · 2000 + 2000 and r < 50000 gives r / 2000 < 25; every point writes back. -/
private theorem rowsCovered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 2000 < cfg2.N := lt_of_lt_of_eq (by omega : (i 0).val / 2000 < 25) N_2.symm
  refine ⟨⟨(i 0).val / 2000, hN⟩, flush2_6 _, ?_⟩
  obtain ⟨-, -, -, -, e60, e61, -⟩ := idxFacts ⟨(i 0).val / 2000, hN⟩
  rw [memBlock]
  intro a
  match a with
  | ⟨0, _⟩ => show win2_6.index ⟨(i 0).val / 2000, hN⟩ (0 : Fin 2) * 2000 ≤ (i 0).val ∧ (i 0).val < win2_6.index ⟨(i 0).val / 2000, hN⟩ (0 : Fin 2) * 2000 + 2000; rw [e60]; show (i 0).val / 2000 * 2000 ≤ (i 0).val ∧ (i 0).val < (i 0).val / 2000 * 2000 + 2000; omega
  | ⟨1, _⟩ => show win2_6.index ⟨(i 0).val / 2000, hN⟩ (1 : Fin 2) * 128 ≤ (i 1).val ∧ (i 1).val < win2_6.index ⟨(i 0).val / 2000, hN⟩ (1 : Fin 2) * 128 + 128; omega

/-- The embedding table the last layer leaves: every row the spec's two affine maps of the entry arrays. -/
theorem region2_arr (c : Dev nD) :
    (dat2 V c).arrAt 6 cfg2.N
      = layerMlp (V c main_v29) (V c main_v39) (V c main_arg12) (fun j => V c main_v40 (ix2 0 j)) (V c main_arg14)
          (fun j => V c main_v41 (ix2 0 j)) :=
  (dat2 V c).arrAt_eq_of_cover 6 _ (fun t _ => flushedRows V c t) rowsCovered

end Cert.Gin.Reg

end
-- ==== Proof.Pool.lean ====
/-
  The pooling pallas_call, whatever the buffers hold when it is entered. Its two outputs stay in their
  staging buffers across the 25 grid points: point 0 clears them, and every point t adds, for each
  graph id g, the rectified embedding rows [2000 t, 2000 t + 2000) whose batch word is g (a product of
  the transposed indicator block with the embedding block) and the number of such rows. After the
  last point the buffers, written back once, hold the sums and the counts over all 50000 nodes.
-/
import proofs.«421258_j1958505087002_1_alg».proof.Proof.Gen.KernelIdeal.Frame
import proofs.«421258_j1958505087002_1_alg».proof.Proof.Spec
import proofs.«421258_j1958505087002_1_alg».proof.Proof.LibDot2
import Idealize.ShloMosaic.Lib.Pipeline.Value
import Idealize.ShloMosaic.Lib.ValueLayout

set_option maxRecDepth 16384

noncomputable section

open scoped BigOperators

namespace Cert.Gin.Reg

open Idealize.ShloMosaic Idealize.ShloMosaic.TcCoe Idealize.ShloMosaic.ValueIdx Idealize.SL.Sem
open Cert.KernelIdeal Cert.KernelIdeal.Gen Cert.Gin

variable (V : (c : Dev nD) → (b : Ref sig .tc) → Buf (Elt Ideal) ((c : Thread nD τ).loc b))

section Pieces
variable {F : FTy → Type} [FloatOps F]

/-- The zero offsets of a whole-block access. -/
private theorem hz2 : (![0, 0] : Fin 2 → Nat) = fun _ => 0 := funext fun a => by fin_cases a <;> rfl

/-- At a point after the first the body leaves, in the sums buffer holding xo2, the sums update of xo2 by the
    point's two input blocks. -/
private theorem out_B_2 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S1x512 .f32) (h4 : a4.IsWhole) (hc : ¬cond3_0 i)
    (x0 : Vec F S2000x128 .f32) (x1 : Vec F S2000x1 .i32) (xo2 : Vec F S512x128 .f32) (xo3 : Vec F S1x512 .f32) :
    out3_B_2 c i a1 h1 a2 h2 a3 h3 a4 h4 hc x0 x1 xo2 xo3 = k3_pay5 x0 x1 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz2]
  simp only [View.readAt_eq_ld, h1.read_unread, h2.read_unread, h3.read_unread, View.ld_unit_zero (S := S2000x128) hz2,
    View.ld_unit_zero (S := S2000x1) hz2, View.ld_unit_zero (S := S512x128) hz2]

/-- At a point after the first the body leaves, in the counts buffer holding xo3, the counts update of xo3 by
    the point's batch block. -/
private theorem out_B_3 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S1x512 .f32) (h4 : a4.IsWhole) (hc : ¬cond3_0 i)
    (x0 : Vec F S2000x128 .f32) (x1 : Vec F S2000x1 .i32) (xo2 : Vec F S512x128 .f32) (xo3 : Vec F S1x512 .f32) :
    out3_B_3 c i a1 h1 a2 h2 a3 h3 a4 h4 hc x0 x1 xo2 xo3 = k3_pay4 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz2]
  simp only [View.readAt_eq_ld, h2.read_unread, h4.read_unread,
    View.ld_unit_zero (S := S2000x1) hz2, View.ld_unit_zero (S := S1x512) hz2]

/-- At the first point the body clears the sums buffer and then updates it: the sums update of the zero block. -/
private theorem out_A_2 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S1x512 .f32) (h4 : a4.IsWhole) (hc : cond3_0 i)
    (x0 : Vec F S2000x128 .f32) (x1 : Vec F S2000x1 .i32) :
    out3_A_2 c i a1 h1 a2 h2 a3 h3 a4 h4 hc x0 x1 = k3_pay5 x0 x1 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S512x128) hz2]
  simp only [View.readAt_eq_ld, h1.read_unread, h2.read_unread, View.readCov_unit_zero (S := S512x128) _ hz2,
    View.ld_unit_zero (S := S2000x128) hz2, View.ld_unit_zero (S := S2000x1) hz2]

/-- At the first point the body clears the counts buffer and then updates it: the counts update of the zero row. -/
private theorem out_A_3 (c : Dev nD) (i : grid3.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (a4 : Memref sig .tc .vmem S1x512 .f32) (h4 : a4.IsWhole) (hc : cond3_0 i)
    (x0 : Vec F S2000x128 .f32) (x1 : Vec F S2000x1 .i32) :
    out3_A_3 c i a1 h1 a2 h2 a3 h3 a4 h4 hc x0 x1 = k3_pay4 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x512) hz2]
  simp only [View.readAt_eq_ld, h2.read_unread, View.readCov_unit_zero (S := S1x512) _ hz2,
    View.ld_unit_zero (S := S2000x1) hz2]

end Pieces

section Payloads

/-- The 32-bit word of a one-bit equality test, read as a float, is the indicator. -/
private theorem oh_word (w : BitVec 32) (g : Fin 512) :
    FloatOps.sitofp (F := Ideal) .f32 ((IntOp.cmpi .eq w (BitVec.ofNat 32 g.val)).setWidth 32) = oh w g := by
  unfold oh
  by_cases h : w = BitVec.ofNat 32 g.val
  · rw [if_pos h, h]
    have e : (IntOp.cmpi .eq (BitVec.ofNat 32 g.val) (BitVec.ofNat 32 g.val)).setWidth 32 = 1#32 := by
      simp [IntOp.cmpi]
    rw [e]
    show ((((1#32 : BitVec 32).toInt : ℝ)) : EReal) = 1
    rw [show (1#32 : BitVec 32).toInt = 1 from by decide]
    simp
  · rw [if_neg h]
    have hb : (w == BitVec.ofNat 32 g.val) = false := beq_eq_false_iff_ne.mpr h
    have e : (IntOp.cmpi .eq w (BitVec.ofNat 32 g.val)).setWidth 32 = 0#32 := by
      show BitVec.setWidth 32 (BitVec.ofBool (w == BitVec.ofNat 32 g.val)) = 0#32
      rw [hb]; rfl
    rw [e]
    show ((((0#32 : BitVec 32).toInt : ℝ)) : EReal) = 0
    rw [show (0#32 : BitVec 32).toInt = 0 from by decide]
    simp

/-- The indicator block at (p, g): does row p's batch word name graph g. -/
private theorem pay3_apply (x1 : Vec Ideal S2000x1 .i32) (p : Fin 2000) (g : Fin 512) :
    k3_pay3 (F := Ideal) x1 (ix2 p g) = oh (x1 (ix2 p 0)) g := by
  unfold k3_pay3
  have e1 : broadcastTo S2000x512 (shapeCast S2000x1 x1 shapeCasts_S2000x1_S2000x1) broadcasts_S2000x1_S2000x512 (ix2 p g)
      = x1 (ix2 p 0) := by
    rw [shapeCast_self]
    exact broadcastTo_apply x1 broadcasts_S2000x1_S2000x512 (ix2 p g) (ix2 p 0)
      (fun a => by match a with | ⟨0, _⟩ => rfl | ⟨1, _⟩ => rfl)
  have e2 : broadcastTo S2000x512 (iota .tc S1x512 32 [1] iota_S1x512_d1_w32) broadcasts_S1x512_S2000x512 (ix2 p g)
      = BitVec.ofNat 32 g.val :=
    (broadcastTo_1b_ab_apply _ broadcasts_S1x512_S2000x512 p g).trans
      (iota_single_apply .tc S1x512 32 1 iota_S1x512_d1_w32 (ix2 0 g))
  refine Eq.trans ?_ (oh_word (x1 (ix2 p 0)) g)
  show FloatOps.sitofp (F := Ideal) .f32 ((IntOp.cmpi .eq
      (broadcastTo S2000x512 (shapeCast S2000x1 x1 shapeCasts_S2000x1_S2000x1) broadcasts_S2000x1_S2000x512 (ix2 p g))
      (broadcastTo S2000x512 (iota .tc S1x512 32 [1] iota_S1x512_d1_w32) broadcasts_S1x512_S2000x512 (ix2 p g))).setWidth 32) = _
  rw [e1, e2]

/-- The counts update at (0, g): the old count plus the number of the block's rows naming g (the indicator summed
    over the rows). -/
private theorem pay4_apply (x1 : Vec Ideal S2000x1 .i32) (acc : Vec Ideal S1x512 .f32) (g : Fin 512) :
    k3_pay4 (F := Ideal) x1 acc (ix2 0 g) = acc (ix2 0 g) + ∑ p : Fin 2000, oh (x1 (ix2 p 0)) g := by
  unfold k3_pay4
  rw [shapeCast_self]
  refine (addf_apply _ _ (ix2 0 g)).trans ?_
  congr 1
  refine (shapeCast_a_1a_apply _ shapeCasts_S512_S1x512 0 g).trans ?_
  refine (Ideal.multiReduction_add_single (k3_pay3 (F := Ideal) x1) 0x00000000#32 reduces_S2000x512_S512 (.inl rfl) rfl (ix1 g)).trans ?_
  refine Finset.sum_congr rfl fun p _ => ?_
  have hl : reduces_S2000x512_S512.lift (ix1 g) p = ix2 p g :=
    funext fun a => Fin.ext (by match a with | ⟨0, _⟩ => rfl | ⟨1, _⟩ => rfl)
  rw [hl]
  exact pay3_apply x1 p g

/-- The sums update at (g, d): the old sum plus, over the block's rows p, indicator(p, g) times the rectified entry
    (p, d) — the product of the indicator block read transposed with the rectified block, accumulated into zero; a
    change of float format is the identity on the extended reals. -/
private theorem pay5_apply (x0 : Vec Ideal S2000x128 .f32) (x1 : Vec Ideal S2000x1 .i32) (acc : Vec Ideal S512x128 .f32)
    (g : Fin 512) (d : Fin 128) :
    k3_pay5 (F := Ideal) x0 x1 acc (ix2 g d)
      = acc (ix2 g d) + ∑ p : Fin 2000, oh (x1 (ix2 p 0)) g * max (x0 (ix2 p d)) 0 := by
  unfold k3_pay5
  rw [shapeCast_self, shapeCast_self]
  refine (addf_apply _ _ (ix2 g d)).trans ?_
  congr 1
  refine (Dot2.matmul_zero_tm_apply (K := 2000) (M := 512) (N := 128) dot_S2000x512_S2000x128_S512x128_0_0_1_1_n_n_wf none
    (truncf .bf16 (k3_pay3 (F := Ideal) x1) bitsLt_bf16_f32)
    (truncf .bf16 (maximumf x0 (broadcast S2000x128 (Scalar.ofBits (F := Ideal) .f32 0x00000000#32))) bitsLt_bf16_f32) g d).trans ?_
  refine Finset.sum_congr rfl fun p _ => ?_
  rw [truncf_apply, truncf_apply, maximumf_apply, broadcast_apply, pay3_apply]
  congr 2
  exact Ideal.ofBits_zero_f32

end Payloads

section Regroup

/-- Row p of block t of the node table. -/
private def row (t : Fin cfg3.N) (p : Fin 2000) : Fin 50000 :=
  ⟨2000 * t.val + p.val, by have := lt_of_lt_of_eq t.isLt N_3; have := p.isLt; omega⟩

/-- One block's share of a sum over the nodes. -/
private def blockSum (f : Fin 50000 → EReal) (t : Fin cfg3.N) : EReal := ∑ p : Fin 2000, f (row t p)

/-- The shares of blocks 0 … n together. -/
private def partSum (f : Fin 50000 → EReal) (n : ℕ) (h : n < cfg3.N) : EReal :=
  ∑ k : Fin (n + 1), blockSum f ⟨k.val, lt_of_lt_of_le k.isLt (Nat.succ_le_of_lt h)⟩

/-- Block 0 alone. -/
private theorem partSum_zero (f : Fin 50000 → EReal) (h : 0 < cfg3.N) : partSum f 0 h = blockSum f ⟨0, h⟩ := by
  unfold partSum
  rw [Fin.sum_univ_one]
  rfl

/-- Blocks 0 … n + 1 are blocks 0 … n and block n + 1. -/
private theorem partSum_succ (f : Fin 50000 → EReal) (n : ℕ) (h : n + 1 < cfg3.N) :
    partSum f (n + 1) h = partSum f n (Nat.lt_of_succ_lt h) + blockSum f ⟨n + 1, h⟩ := by
  unfold partSum
  rw [Fin.sum_univ_castSucc]
  rfl

/-- All 25 blocks of 2000 rows are the 50000 nodes, each once: node 2000 k + p is row p of block k. -/
private theorem partSum_last (f : Fin 50000 → EReal) (h : 24 < cfg3.N) : partSum f 24 h = ∑ n : Fin 50000, f n := by
  unfold partSum blockSum
  refine (Fintype.sum_prod_type' (fun (k : Fin 25) (p : Fin 2000) =>
    f (row ⟨k.val, lt_of_lt_of_le k.isLt (Nat.succ_le_of_lt h)⟩ p))).symm.trans ?_
  refine Fintype.sum_equiv (finProdFinEquiv (m := 25) (n := 2000)) _ f fun x => ?_
  exact congrArg f (Fin.ext (Nat.add_comm _ _))

end Regroup

section Blocks

/-- The two input blocks of point t start at row block t, column block 0 of their arrays. -/
private theorem idx3_0 : ∀ t : Fin cfg3.N, win3_0.index t 0 = t.val ∧ win3_0.index t 1 = 0 :=
  (by decide +kernel : ∀ t : Fin grid3.N, win3_0.index t 0 = t.val ∧ win3_0.index t 1 = 0)
private theorem idx3_1 : ∀ t : Fin cfg3.N, win3_1.index t 0 = t.val ∧ win3_1.index t 1 = 0 :=
  (by decide +kernel : ∀ t : Fin grid3.N, win3_1.index t 0 = t.val ∧ win3_1.index t 1 = 0)

/-- The embedding block at point t is rows 2000 t … 2000 t + 1999 of the embedding table. -/
private theorem xblk_row (c : Dev nD) (t : Fin cfg3.N) (p : Fin 2000) (d : Fin 128) :
    (iblk3 V c 0 t : Vec Ideal S2000x128 .f32) (ix2 p d) = (V c main_v42 : Vec Ideal S50000x128 .f32) (ix2 (row t p) d) := by
  unfold iblk3
  rw [View.read_apply]
  show V c main_v42 _ = V c main_v42 _
  congr 1
  funext a; apply Fin.ext
  match a with
  | ⟨0, _⟩ => show win3_0.index t 0 * 2000 + 1 * p.val = 2000 * t.val + p.val; rw [(idx3_0 t).1]; omega
  | ⟨1, _⟩ => show win3_0.index t 1 * 128 + 1 * d.val = d.val; rw [(idx3_0 t).2]; omega

/-- The batch block at point t is the same rows of the batch column. -/
private theorem bblk_row (c : Dev nD) (t : Fin cfg3.N) (p : Fin 2000) :
    (iblk3 V c 1 t : Vec Ideal S2000x1 .i32) (ix2 p 0) = (V c main_v43 : Vec Ideal S50000x1 .i32) (ix2 (row t p) 0) := by
  unfold iblk3
  rw [View.read_apply]
  show V c main_v43 _ = V c main_v43 _
  congr 1
  funext a; apply Fin.ext
  match a with
  | ⟨0, _⟩ => show win3_1.index t 0 * 2000 + 1 * p.val = 2000 * t.val + p.val; rw [(idx3_1 t).1]; omega
  | ⟨1, _⟩ => show win3_1.index t 1 * 1 + 1 * 0 = 0; rw [(idx3_1 t).2]

end Blocks

section Invariant

/-- The embedding block and the batch block of point t, the embedding table and the batch column. -/
private abbrev xblk (c : Dev nD) (t : Fin cfg3.N) : Vec Ideal S2000x128 .f32 := iblk3 V c 0 t
private abbrev bblk (c : Dev nD) (t : Fin cfg3.N) : Vec Ideal S2000x1 .i32 := iblk3 V c 1 t
private abbrev xarr (c : Dev nD) : Vec Ideal S50000x128 .f32 := V c main_v42
private abbrev barr (c : Dev nD) : Vec Ideal S50000x1 .i32 := V c main_v43

/-- One node's share of the sum for graph g and feature d. -/
private def sTerm (E : A2 50000 128) (B : Fin 50000 → BitVec 32) (g : Fin 512) (d : Fin 128) (n : Fin 50000) : EReal :=
  oh (B n) g * max (E (ix2 n d)) 0

/-- The product term of one point, summed over the block's rows, is that block's share of the node sum. -/
private theorem blk_sums (c : Dev nD) (t : Fin cfg3.N) (g : Fin 512) (d : Fin 128) :
    ∑ p : Fin 2000, oh (bblk V c t (ix2 p 0)) g * max (xblk V c t (ix2 p d)) 0
      = blockSum (sTerm (xarr V c) (fun n => barr V c (ix2 n 0)) g d) t :=
  Finset.sum_congr rfl fun p _ => by
    rw [show xblk V c t (ix2 p d) = xarr V c (ix2 (row t p) d) from xblk_row V c t p d,
      show bblk V c t (ix2 p 0) = barr V c (ix2 (row t p) 0) from bblk_row V c t p]
    rfl

/-- The count term of one point is that block's share of the node count. -/
private theorem blk_cnts (c : Dev nD) (t : Fin cfg3.N) (g : Fin 512) :
    ∑ p : Fin 2000, oh (bblk V c t (ix2 p 0)) g = blockSum (fun n => oh (barr V c (ix2 n 0)) g) t :=
  Finset.sum_congr rfl fun p _ => by
    rw [show bblk V c t (ix2 p 0) = barr V c (ix2 (row t p) 0) from bblk_row V c t p]

/-- Point 0: the zero block plus block 0's share. -/
private theorem sums_inv0 (c : Dev nD) (h : 0 < cfg3.N) (g : Fin 512) (d : Fin 128) :
    ((outsAt3 V c 0 h).1 : Vec Ideal S512x128 .f32) (ix2 g d)
      = partSum (sTerm (xarr V c) (fun n => barr V c (ix2 n 0)) g d) 0 h := by
    rw [outsAt3_A V c ⟨0, h⟩ rfl]
    dsimp only
    refine (congrFun (out_A_2 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl)
      (xblk V c ⟨0, h⟩) (bblk V c ⟨0, h⟩)) (ix2 g d)).trans ?_
    refine (pay5_apply (xblk V c ⟨0, h⟩) (bblk V c ⟨0, h⟩) (k3_pay1 (F := Ideal)) g d).trans ?_
    rw [partSum_zero, show k3_pay1 (F := Ideal) (ix2 g d) = 0 from Ideal.ofBits_zero_f32, zero_add]
    exact blk_sums V c ⟨0, h⟩ g d

/-- Point n + 1: what point n left plus block n + 1's share. -/
private theorem sums_invS (c : Dev nD) (n : ℕ) (h : n + 1 < cfg3.N) (g : Fin 512) (d : Fin 128)
    (ih : ((outsAt3 V c n (Nat.lt_of_succ_lt h)).1 : Vec Ideal S512x128 .f32) (ix2 g d)
      = partSum (sTerm (xarr V c) (fun n => barr V c (ix2 n 0)) g d) n (Nat.lt_of_succ_lt h)) :
    ((outsAt3 V c (n + 1) h).1 : Vec Ideal S512x128 .f32) (ix2 g d)
      = partSum (sTerm (xarr V c) (fun n => barr V c (ix2 n 0)) g d) (n + 1) h := by
    have hB : ¬(⟨n + 1, h⟩ : Fin cfg3.N).val % 25 = 0 := by
      have := lt_of_lt_of_eq h N_3; dsimp only; omega
    rw [outsAt3_B V c ⟨n + 1, h⟩ hB]
    dsimp only
    refine (congrFun (out_B_2 (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (ms3_3 ⟨n + 1, h⟩) (hs3_3 ⟨n + 1, h⟩)
      (fun hh => hB ((hcond3_0 ⟨n + 1, h⟩).mp hh)) (xblk V c ⟨n + 1, h⟩) (bblk V c ⟨n + 1, h⟩)
      (outsAt3 V c (n + 1 - 1) (Nat.lt_of_le_of_lt (Nat.sub_le _ _) h)).1
      (outsAt3 V c (n + 1 - 1) (Nat.lt_of_le_of_lt (Nat.sub_le _ _) h)).2) (ix2 g d)).trans ?_
    refine (pay5_apply (xblk V c ⟨n + 1, h⟩) (bblk V c ⟨n + 1, h⟩)
      (outsAt3 V c (n + 1 - 1) (Nat.lt_of_le_of_lt (Nat.sub_le _ _) h)).1 g d).trans ?_
    rw [partSum_succ]
    refine congrArg₂ (· + ·) ih ?_
    exact blk_sums V c ⟨n + 1, h⟩ g d

/-- After point n the sums buffer holds, at (g, d), the shares of blocks 0 … n. -/
private theorem sums_inv (c : Dev nD) (g : Fin 512) (d : Fin 128) : ∀ (n : ℕ) (h : n < cfg3.N),
    ((outsAt3 V c n h).1 : Vec Ideal S512x128 .f32) (ix2 g d)
      = partSum (sTerm (xarr V c) (fun n => barr V c (ix2 n 0)) g d) n h := by
  intro n
  induction n with
  | zero => exact fun h => sums_inv0 V c h g d
  | succ n ih => exact fun h => sums_invS V c n h g d (ih (Nat.lt_of_succ_lt h))

/-- Point 0: the zero row plus block 0's count. -/
private theorem cnts_inv0 (c : Dev nD) (h : 0 < cfg3.N) (g : Fin 512) :
    ((outsAt3 V c 0 h).2 : Vec Ideal S1x512 .f32) (ix2 0 g)
      = partSum (fun n => oh (barr V c (ix2 n 0)) g) 0 h := by
    rw [outsAt3_A V c ⟨0, h⟩ rfl]
    dsimp only
    refine (congrFun (out_A_3 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl)
      (xblk V c ⟨0, h⟩) (bblk V c ⟨0, h⟩)) (ix2 0 g)).trans ?_
    refine (pay4_apply (bblk V c ⟨0, h⟩) (k3_pay2 (F := Ideal)) g).trans ?_
    rw [partSum_zero, show k3_pay2 (F := Ideal) (ix2 0 g) = 0 from Ideal.ofBits_zero_f32, zero_add]
    exact blk_cnts V c ⟨0, h⟩ g

/-- Point n + 1: what point n left plus block n + 1's count. -/
private theorem cnts_invS (c : Dev nD) (n : ℕ) (h : n + 1 < cfg3.N) (g : Fin 512)
    (ih : ((outsAt3 V c n (Nat.lt_of_succ_lt h)).2 : Vec Ideal S1x512 .f32) (ix2 0 g)
      = partSum (fun n => oh (barr V c (ix2 n 0)) g) n (Nat.lt_of_succ_lt h)) :
    ((outsAt3 V c (n + 1) h).2 : Vec Ideal S1x512 .f32) (ix2 0 g)
      = partSum (fun n => oh (barr V c (ix2 n 0)) g) (n + 1) h := by
    have hB : ¬(⟨n + 1, h⟩ : Fin cfg3.N).val % 25 = 0 := by
      have := lt_of_lt_of_eq h N_3; dsimp only; omega
    rw [outsAt3_B V c ⟨n + 1, h⟩ hB]
    dsimp only
    refine (congrFun (out_B_3 (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (ms3_3 ⟨n + 1, h⟩) (hs3_3 ⟨n + 1, h⟩)
      (fun hh => hB ((hcond3_0 ⟨n + 1, h⟩).mp hh)) (xblk V c ⟨n + 1, h⟩) (bblk V c ⟨n + 1, h⟩)
      (outsAt3 V c (n + 1 - 1) (Nat.lt_of_le_of_lt (Nat.sub_le _ _) h)).1
      (outsAt3 V c (n + 1 - 1) (Nat.lt_of_le_of_lt (Nat.sub_le _ _) h)).2) (ix2 0 g)).trans ?_
    refine (pay4_apply (bblk V c ⟨n + 1, h⟩)
      (outsAt3 V c (n + 1 - 1) (Nat.lt_of_le_of_lt (Nat.sub_le _ _) h)).2 g).trans ?_
    rw [partSum_succ]
    refine congrArg₂ (· + ·) ih ?_
    exact blk_cnts V c ⟨n + 1, h⟩ g

/-- After point n the counts buffer holds, at (0, g), the number of rows of blocks 0 … n naming g. -/
private theorem cnts_inv (c : Dev nD) (g : Fin 512) : ∀ (n : ℕ) (h : n < cfg3.N),
    ((outsAt3 V c n h).2 : Vec Ideal S1x512 .f32) (ix2 0 g)
      = partSum (fun n => oh (barr V c (ix2 n 0)) g) n h := by
  intro n
  induction n with
  | zero => exact fun h => cnts_inv0 V c h g
  | succ n ih => exact fun h => cnts_invS V c n h g (ih (Nat.lt_of_succ_lt h))

/-- The last grid point, the one whose buffers are written back. -/
private abbrev tLast : Fin cfg3.N := ⟨24, by rw [show cfg3.N = 25 from N_3]; decide⟩

/-- The sums and counts over all the nodes, as contents of the two result arrays. -/
private abbrev sumsArr (c : Dev nD) : Buf (Elt Ideal) ((c : Thread nD τ).loc main_v44_0) :=
  fun i => poolSums (V c main_v42) (fun n => V c main_v43 (ix2 n 0)) (i 0) (i 1)
private abbrev cntsArr (c : Dev nD) : Buf (Elt Ideal) ((c : Thread nD τ).loc main_v44_1) :=
  fun i => poolCnts (fun n => V c main_v43 (ix2 n 0)) (i 1)

/-- The one write-back of the sums, at the last point: the buffer after it is the sums over all nodes, and its block
    is the whole array read at zero offsets. -/
private theorem flushed2_eq (c : Dev nD) (t : Fin cfg3.N) (hf : (cfg3.win 2).flush t = true) :
    (dat3 V c).flushed 2 t = ((cfg3.win 2).blk t).view.read (Elt Ideal) (sumsArr V c) := by
  have hN : cfg3.N = 25 := N_3
  have h24 : t.val = 24 := by have := (flush3_2 t).mp hf; have := t.isLt; omega
  obtain rfl : t = tLast := Fin.ext h24
  show (cfg3.win 2).cut (grid3.coords tLast) ((dat3 V c).after 2 tLast) = _
  rw [after3_2]
  have hz' : (fun a => win3_2.index tLast a * main_v44_0.ty.shape.size a) = fun _ => 0 :=
    funext fun a => by fin_cases a <;> decide
  refine Eq.trans ?_ (Memref.read_access_unit_zero (Elt Ideal) main_v44_0 hz' (fun a => by rw [congrFun hz' a]; simp) (sumsArr V c)).symm
  show ((outsAt3 V c 24 tLast.isLt).1 : Vec Ideal S512x128 .f32) = sumsArr V c
  funext j
  obtain ⟨g, d, rfl⟩ : ∃ (g : Fin 512) (d : Fin 128), j = ix2 g d := ⟨j 0, j 1, eq_ix2 j⟩
  rw [sums_inv V c g d 24 tLast.isLt, partSum_last]
  rfl

end Invariant

section Result

/-- The one write-back of the counts, at the last point: the buffer after it is the counts over all nodes, and its
    block is the whole 1 x 512 array read at zero offsets. -/
private theorem flushed3_eq (c : Dev nD) (t : Fin cfg3.N) (hf : (cfg3.win 3).flush t = true) :
    (dat3 V c).flushed 3 t = ((cfg3.win 3).blk t).view.read (Elt Ideal) (cntsArr V c) := by
  have hN : cfg3.N = 25 := N_3
  have h24 : t.val = 24 := by have := (flush3_3 t).mp hf; have := t.isLt; omega
  obtain rfl : t = tLast := Fin.ext h24
  show (cfg3.win 3).cut (grid3.coords tLast) ((dat3 V c).after 3 tLast) = _
  rw [after3_3]
  have hz' : (fun a => win3_3.index tLast a * main_v44_1.ty.shape.size a) = fun _ => 0 :=
    funext fun a => by fin_cases a <;> decide
  refine Eq.trans ?_ (Memref.read_access_unit_zero (Elt Ideal) main_v44_1 hz' (fun a => by rw [congrFun hz' a]; simp) (cntsArr V c)).symm
  show ((outsAt3 V c 24 tLast.isLt).2 : Vec Ideal S1x512 .f32) = cntsArr V c
  funext j
  obtain ⟨u, g, rfl⟩ : ∃ (u : Fin 1) (g : Fin 512), j = ix2 u g := ⟨j 0, j 1, eq_ix2 j⟩
  obtain rfl : u = 0 := Subsingleton.elim _ _
  rw [cnts_inv V c g 24 tLast.isLt, partSum_last]
  rfl

/-- The per-graph sums the pooling call leaves. -/
theorem pool_sums_arr (c : Dev nD) :
    (dat3 V c).arrAt 2 cfg3.N
      = fun i => poolSums (V c main_v42) (fun n => V c main_v43 (ix2 n 0)) (i 0) (i 1) :=
  (dat3 V c).arrAt_eq_of_cover 2 (sumsArr V c) (flushed2_eq V c) fun i =>
    ⟨tLast, (flush3_2 tLast).mpr rfl, by
      show i ∈ ((View.whole main_v44_0).slice (win3_2.rect tLast)).set
      rw [View.set_slice_whole, Rect.mem_set_unit]
      intro a
      have h0 : (i 0 : Nat) < 512 := (i 0).isLt
      have h1 : (i 1 : Nat) < 128 := (i 1).isLt
      match a with
      | ⟨0, _⟩ =>
        show win3_2.index tLast 0 * win3_2.size 0 ≤ (i 0 : Nat)
          ∧ (i 0 : Nat) < win3_2.index tLast 0 * win3_2.size 0 + win3_2.xsize (grid3.coords tLast) 0
        rw [show win3_2.index tLast 0 * win3_2.size 0 = 0 from by decide +kernel,
          show win3_2.xsize (grid3.coords tLast) 0 = 512 from by decide +kernel]
        omega
      | ⟨1, _⟩ =>
        show win3_2.index tLast 1 * win3_2.size 1 ≤ (i 1 : Nat)
          ∧ (i 1 : Nat) < win3_2.index tLast 1 * win3_2.size 1 + win3_2.xsize (grid3.coords tLast) 1
        rw [show win3_2.index tLast 1 * win3_2.size 1 = 0 from by decide +kernel,
          show win3_2.xsize (grid3.coords tLast) 1 = 128 from by decide +kernel]
        omega⟩

/-- The per-graph node counts the pooling call leaves (a 1 x 512 row). -/
theorem pool_cnts_arr (c : Dev nD) :
    (dat3 V c).arrAt 3 cfg3.N = fun i => poolCnts (fun n => V c main_v43 (ix2 n 0)) (i 1) :=
  (dat3 V c).arrAt_eq_of_cover 3 (cntsArr V c) (flushed3_eq V c) fun i =>
    ⟨tLast, (flush3_3 tLast).mpr rfl, by
      show i ∈ ((View.whole main_v44_1).slice (win3_3.rect tLast)).set
      rw [View.set_slice_whole, Rect.mem_set_unit]
      intro a
      have h0 : (i 0 : Nat) < 1 := (i 0).isLt
      have h1 : (i 1 : Nat) < 512 := (i 1).isLt
      match a with
      | ⟨0, _⟩ =>
        show win3_3.index tLast 0 * win3_3.size 0 ≤ (i 0 : Nat)
          ∧ (i 0 : Nat) < win3_3.index tLast 0 * win3_3.size 0 + win3_3.xsize (grid3.coords tLast) 0
        rw [show win3_3.index tLast 0 * win3_3.size 0 = 0 from by decide +kernel,
          show win3_3.xsize (grid3.coords tLast) 0 = 1 from by decide +kernel]
        omega
      | ⟨1, _⟩ =>
        show win3_3.index tLast 1 * win3_3.size 1 ≤ (i 1 : Nat)
          ∧ (i 1 : Nat) < win3_3.index tLast 1 * win3_3.size 1 + win3_3.xsize (grid3.coords tLast) 1
        rw [show win3_3.index tLast 1 * win3_3.size 1 = 0 from by decide +kernel,
          show win3_3.xsize (grid3.coords tLast) 1 = 512 from by decide +kernel]
        omega⟩

end Result

end Cert.Gin.Reg

end
-- ==== Proof.KValue.lean ====
/-
  The kernel program's two results as the spec's functions of the arguments: the four regions'
  output arrays (each the spec's function of what the region found at entry) chained through the fold
  of the host stretches, whose reads are the launch contents of the arguments, the neighbour
  aggregation of the previous layer's table, or a reshape of an argument.
-/
import proofs.«421258_j1958505087002_1_alg».proof.Proof.KFold
import proofs.«421258_j1958505087002_1_alg».proof.Proof.Region0
import proofs.«421258_j1958505087002_1_alg».proof.Proof.Region1
import proofs.«421258_j1958505087002_1_alg».proof.Proof.Region2
import proofs.«421258_j1958505087002_1_alg».proof.Proof.Pool
import proofs.«421258_j1958505087002_1_alg».proof.Proof.KRun

set_option maxRecDepth 16384

noncomputable section

namespace Cert.Gin.KValue

open Idealize.ShloMosaic Idealize.ShloMosaic.TcCoe Idealize.ShloMosaic.ValueIdx Idealize.SL.Sem Idealize.ShloMosaic.StableHlo
open Cert.KernelIdeal Cert.KernelIdeal.Gen Cert.Gin Cert.Gin.Fold

variable (m : (ℓ : Loc nD τ sig) → Buf (Elt Ideal) ℓ) (ρ : Dev nD → PrngReg) (c : Dev nD)

/-- A rank-1 array of 128 floats as a row. -/
def rowOf (v : FVec Ideal S128 .f32) : Fin 128 → EReal := fun j => v (ix1 j)

/-- The 1 x 128 reshape of a 128-vector, read along its one row, is the vector. -/
theorem row_reshape (v : FVec Ideal S128 .f32) :
    (fun j : Fin 128 => shapeCast S1x128 v shapeCasts_S128_S1x128 (ix2 (0 : Fin 1) j)) = rowOf v := by
  funext j; exact shapeCast_a_1a_apply v _ 0 j

/-- The node table after the first normalised layer. -/
def H0 : A2 50000 128 :=
  layerLn (m ((c : Thread nD τ).loc main_arg0))
    (aggK (F := Ideal) (m ((c : Thread nD τ).loc main_arg0)) (m ((c : Thread nD τ).loc main_arg1)) (m ((c : Thread nD τ).loc main_arg2)))
    (m ((c : Thread nD τ).loc main_arg4)) (rowOf (m ((c : Thread nD τ).loc main_arg5)))
    (m ((c : Thread nD τ).loc main_arg6)) (rowOf (m ((c : Thread nD τ).loc main_arg7)))
    (rowOf (m ((c : Thread nD τ).loc main_arg16))) (rowOf (m ((c : Thread nD τ).loc main_arg17)))

/-- The node table after the second normalised layer. -/
def H1 : A2 50000 128 :=
  layerLn (H0 m c)
    (aggK (F := Ideal) (H0 m c) (m ((c : Thread nD τ).loc main_arg1)) (m ((c : Thread nD τ).loc main_arg2)))
    (m ((c : Thread nD τ).loc main_arg8)) (rowOf (m ((c : Thread nD τ).loc main_arg9)))
    (m ((c : Thread nD τ).loc main_arg10)) (rowOf (m ((c : Thread nD τ).loc main_arg11)))
    (rowOf (m ((c : Thread nD τ).loc main_arg18))) (rowOf (m ((c : Thread nD τ).loc main_arg19)))

/-- The node embedding (the first result). -/
def EMB : A2 50000 128 :=
  layerMlp (H1 m c)
    (aggK (F := Ideal) (H1 m c) (m ((c : Thread nD τ).loc main_arg1)) (m ((c : Thread nD τ).loc main_arg2)))
    (m ((c : Thread nD τ).loc main_arg12)) (rowOf (m ((c : Thread nD τ).loc main_arg13)))
    (m ((c : Thread nD τ).loc main_arg14)) (rowOf (m ((c : Thread nD τ).loc main_arg15)))

theorem arr0 : (dat0 (V1 m ρ) c).arrAt 8 cfg0.N = H0 m c := by
  rw [Reg.region0_arr, V1_arg0, V1_v9, V1_arg4, V1_arg6, V1_v10, V1_v11, V1_v12, V1_v13]
  simp only [row_reshape]; rfl

theorem arr1 : (dat1 (V3 m ρ) c).arrAt 8 cfg1.N = H1 m c := by
  rw [Reg.region1_arr, V3_v14, V3_v24, V3_arg8, V3_arg10, V3_v25, V3_v26, V3_v27, V3_v28, arr0]
  simp only [row_reshape]; rfl

theorem arr2 : (dat2 (V5 m ρ) c).arrAt 6 cfg2.N = EMB m c := by
  rw [Reg.region2_arr, V5_v29, V5_v39, V5_arg12, V5_arg14, V5_v40, V5_v41, arr1]
  simp only [row_reshape]; rfl

/-- The batch vector as a function of the node. -/
def batchOf : Fin 50000 → BitVec 32 := fun n => m ((c : Thread nD τ).loc main_arg3) (ix1 n)

theorem col_reshape (v : IVec S50000 32) :
    (fun n : Fin 50000 => shapeCast S50000x1 v shapeCasts_S50000_S50000x1 (ix2 n (0 : Fin 1))) = fun n => v (ix1 n) := by
  funext n
  refine shapeCast_apply v _ _ _ ?_
  rw [Shape.rowMajor_val_two, Shape.rowMajor_val_one]
  show n.val = n.val * 1 + 0
  omega

theorem sums_arr : (dat3 (V7 m ρ) c).arrAt 2 cfg3.N = fun i => poolSums (EMB m c) (batchOf m c) (i 0) (i 1) := by
  rw [Reg.pool_sums_arr, V7_v42, V7_v43, arr2]
  simp only [col_reshape]; rfl

theorem cnts_arr : (dat3 (V7 m ρ) c).arrAt 3 cfg3.N = fun i => poolCnts (batchOf m c) (i 1) := by
  rw [Reg.pool_cnts_arr, V7_v43]
  simp only [col_reshape]; rfl

/-- The 512 x 1 reshape of the counts row is the counts as a column. -/
theorem cnts_col (f : Fin 512 → EReal) :
    shapeCast S512x1 (fun i : S1x512.Idx => f (i 1)) shapeCasts_S1x512_S512x1 = fun i : S512x1.Idx => f (i 0) := by
  funext i
  obtain ⟨g, u, rfl⟩ : ∃ (g : Fin 512) (u : Fin 1), i = ix2 g u := ⟨i 0, i 1, eq_ix2 i⟩
  refine (shapeCast_apply (fun i : S1x512.Idx => f (i 1)) _ (ix2 g u) (ix2 (0 : Fin 1) g) ?_).trans rfl
  rw [Shape.rowMajor_val_two, Shape.rowMajor_val_two]
  show 0 * 512 + g.val = g.val * 1 + u.val
  omega

/-- The second result: the head applied to the pooled sums and counts. -/
def LOGP : FVec Ideal S512x10 .f32 :=
  tailK (fun i => poolSums (EMB m c) (batchOf m c) (i 0) (i 1)) (fun i => poolCnts (batchOf m c) (i 0))
    (m ((c : Thread nD τ).loc main_arg20)) (m ((c : Thread nD τ).loc main_arg21))
    (m ((c : Thread nD τ).loc main_arg22)) (m ((c : Thread nD τ).loc main_arg23))

theorem res_v42 : W10 m ρ c (Proc.devRef .tc main_v42) = EMB m c := (W10_v42 m ρ c).trans (arr2 m ρ c)

theorem res_v58 : W10 m ρ c (Proc.devRef .tc main_v58) = LOGP m c := by
  rw [W10_v58, sums_arr, cnts_arr]
  exact congrArg (fun z : FVec Ideal S512x1 .f32 => tailK (F := Ideal) (fun i => poolSums (EMB m c) (batchOf m c) (i 0) (i 1)) z
    (m ((c : Thread nD τ).loc main_arg20)) (m ((c : Thread nD τ).loc main_arg21)) (m ((c : Thread nD τ).loc main_arg22)) (m ((c : Thread nD τ).loc main_arg23)))
    (cnts_col (poolCnts (batchOf m c)))

end Cert.Gin.KValue

end
-- ==== Proof.RefLayer.lean ====
/-
  One layer of the reference, as the host operations it is printed with, read at an entry.

  refMlp is the two general dot products with their broadcast offsets and the rectifier between;
  refLn is the rectifier, the two row reductions divided by 128, the inverse root and the gain and
  shift. At (r, q) each depends on row r only and is the spec's row function of that row: a host dot
  product with one contracted axis is the plain sum over it, a host add-reduction is its initial value
  (zero) plus the sum over the reduced coordinate, and a broadcast reads its operand at the kept
  coordinates.
-/
import proofs.«421258_j1958505087002_1_alg».proof.Proof.Gen.ReferenceIdeal
import proofs.«421258_j1958505087002_1_alg».proof.Proof.Spec
import proofs.«421258_j1958505087002_1_alg».proof.Proof.LibDot2
import Idealize.ShloMosaic.Lib.Pipeline.Value
import Idealize.ShloMosaic.Lib.ValueLayout

noncomputable section

open scoped BigOperators

namespace Cert.Gin.RefLayer

open Idealize.ShloMosaic Idealize.ShloMosaic.ValueIdx Cert.ReferenceIdeal Cert.ReferenceIdeal.Facts₀ Cert.Gin

variable {F : FTy → Type} [FloatOps F]

/-- A feature row broadcast down the 50000 node rows, as the reference spells it (through a 1 x 128 array). -/
def bcastRow (v : FVec F S128 .f32) : FVec F S50000x128 .f32 :=
  broadcastInDim S50000x128 ![0, 1] bcast_S1x128_S50000x128_0_1 (broadcastInDim S1x128 ![1] bcast_S128_S1x128_1 v)

/-- The float constant with word w broadcast over the node table. -/
def splatTable (w : BitVec 32) : FVec F S50000x128 .f32 :=
  broadcastInDim S50000x128 ![] bcast_S_S50000x128 (constant (F := F) S_ .f32 w)

/-- The float constant with word w broadcast over a 50000 x 1 column. -/
def splatCol (w : BitVec 32) : FVec F S50000x1 .f32 :=
  broadcastInDim S50000x1 ![] bcast_S_S50000x1 (constant (F := F) S_ .f32 w)

/-- The reference's two affine maps with the rectifier between, on X + A. -/
def refMlp (X A : FVec F S50000x128 .f32) (W1 : FVec F S128x128 .f32) (b1 : FVec F S128 .f32)
    (W2 : FVec F S128x128 .f32) (b2 : FVec F S128 .f32) : FVec F S50000x128 .f32 :=
  addf (Host.dotGeneral dot_S50000x128_S128x128_S50000x128_1_0_0_1_n_n none
      (maximumf (addf (Host.dotGeneral dot_S50000x128_S128x128_S50000x128_1_0_0_1_n_n none (addf X A) W1) (bcastRow b1))
        (splatTable 0x00000000#32)) W2) (bcastRow b2)

/-- The rectified table. -/
def refRelu (Z : FVec F S50000x128 .f32) : FVec F S50000x128 .f32 := maximumf Z (splatTable 0x00000000#32)

/-- A row reduction of a table divided by 128, as a 50000 x 1 column. -/
def refMeanCol (Y : FVec F S50000x128 .f32) : FVec F S50000x1 .f32 :=
  Host.divf (broadcastInDim S50000x1 ![0] bcast_S50000_S50000x1_0
      (Host.reduceAdd Y (constant (F := F) S_ .f32 0x00000000#32) reducesTo_S50000x128_S50000_d1 h_S_))
    (splatCol 0x43000000#32)

/-- A 50000 x 1 column broadcast along the features. -/
def bcastCol (v : FVec F S50000x1 .f32) : FVec F S50000x128 .f32 :=
  broadcastInDim S50000x128 ![0, 1] bcast_S50000x1_S50000x128_0_1 v

/-- The reference's normalisation of the rectified table, with gain g and shift b. -/
def refLn (Z : FVec F S50000x128 .f32) (g b : FVec F S128 .f32) : FVec F S50000x128 .f32 :=
  addf (mulf (mulf (subf (refRelu Z) (bcastCol (refMeanCol (refRelu Z))))
      (bcastCol (Host.rsqrt (addf
        (refMeanCol (mulf (subf (refRelu Z) (bcastCol (refMeanCol (refRelu Z)))) (subf (refRelu Z) (bcastCol (refMeanCol (refRelu Z))))))
        (splatCol 0x3727C5AC#32)))))
      (bcastRow g)) (bcastRow b)

/-! ## Each building block read at an entry -/

/-- A feature row broadcast down the node rows reads, at (r, q), the row's entry q: the 1 x 128 array in
    between is read at (0, q), its unit axis at coordinate 0. -/
private theorem bcastRow_apply (v : FVec Ideal S128 .f32) (r : Fin 50000) (q : Fin 128) :
    bcastRow v (ix2 r q) = v (ix1 q) := by
  unfold bcastRow
  refine (broadcastInDim_apply _ bcast_S1x128_S50000x128_0_1 _ (ix2 r q) (ix2 (⟨0, Nat.one_pos⟩ : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
  exact broadcastInDim_apply _ bcast_S128_S1x128_1 v _ (ix1 q) (fun a => match a with
    | ⟨0, _⟩ => by show q.val = if (128 : Nat) = 1 then 0 else q.val; rw [if_neg (by decide)])

/-- A scalar constant broadcast over the node table reads the constant everywhere. -/
private theorem splatTable_apply (w : BitVec 32) (i : S50000x128.Idx) :
    splatTable w i = Ideal.ofBits .f32 w := by
  unfold splatTable
  exact broadcastInDim_apply _ bcast_S_S50000x128 _ i (fun a => a.elim0) (fun a => a.elim0)

/-- A scalar constant broadcast over a column reads the constant everywhere. -/
private theorem splatCol_apply (w : BitVec 32) (i : S50000x1.Idx) :
    splatCol w i = Ideal.ofBits .f32 w := by
  unfold splatCol
  exact broadcastInDim_apply _ bcast_S_S50000x1 _ i (fun a => a.elim0) (fun a => a.elim0)

/-- A column broadcast along the features reads, at (r, q), the column's entry (r, 0). -/
private theorem bcastCol_apply (v : FVec Ideal S50000x1 .f32) (r : Fin 50000) (q : Fin 128) :
    bcastCol v (ix2 r q) = v (ix2 r (0 : Fin 1)) := by
  unfold bcastCol
  exact broadcastInDim_apply _ bcast_S50000x1_S50000x128_0_1 v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- The rectified table at an entry is the larger of the entry and zero. -/
private theorem refRelu_apply (Z : FVec Ideal S50000x128 .f32) (i : S50000x128.Idx) :
    refRelu Z i = max (Z i) 0 := by
  unfold refRelu
  rw [maximumf_apply, splatTable_apply, Ideal.ofBits_zero_f32]

/-- A vector of 50000 entries laid out as a column reads, at (r, 0), the vector's entry r. -/
private theorem colOfVec_apply (v : FVec Ideal S50000 .f32) (r : Fin 50000) :
    broadcastInDim S50000x1 ![0] bcast_S50000_S50000x1_0 v (ix2 r (0 : Fin 1)) = v (ix1 r) :=
  broadcastInDim_apply _ bcast_S50000_S50000x1_0 v _ (ix1 r) (fun a => match a with
    | ⟨0, _⟩ => by show r.val = if (50000 : Nat) = 1 then 0 else r.val; rw [if_neg (by decide)])

/-- The host's sum over the feature axis, started from the zero constant, at row r: zero plus the sum over the
    128 features of the row's entries. -/
private theorem rowSum_apply (Y : FVec Ideal S50000x128 .f32) (r : Fin 50000) :
    Host.reduceAdd Y (constant (F := Ideal) S_ .f32 0x00000000#32) reducesTo_S50000x128_S50000_d1 h_S_ (ix1 r)
      = ∑ q : Fin 128, Y (ix2 r q) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => ?_
  exact congrArg Y (funext fun a => Fin.ext (by match a with | ⟨0, _⟩ => rfl | ⟨1, _⟩ => rfl))

/-- The row sum divided by the constant 128, at (r, 0). -/
private theorem refMeanCol_apply (Y : FVec Ideal S50000x128 .f32) (r : Fin 50000) :
    refMeanCol Y (ix2 r (0 : Fin 1)) = Ideal.div (∑ q : Fin 128, Y (ix2 r q)) c128 := by
  unfold refMeanCol c128
  show Ideal.div (broadcastInDim S50000x1 ![0] bcast_S50000_S50000x1_0
      (Host.reduceAdd Y (constant (F := Ideal) S_ .f32 0x00000000#32) reducesTo_S50000x128_S50000_d1 h_S_) (ix2 r (0 : Fin 1)))
    (splatCol (F := Ideal) 0x43000000#32 (ix2 r (0 : Fin 1))) = _
  rw [colOfVec_apply, rowSum_apply, splatCol_apply]

/-- The host's product of the node table by a 128 x 128 matrix, at (r, q): the sum over the contracted
    feature k of L[r, k] * W[k, q]. -/
private theorem dot_apply (L : FVec Ideal S50000x128 .f32) (W : FVec Ideal S128x128 .f32) (r : Fin 50000) (q : Fin 128) :
    Host.dotGeneral dot_S50000x128_S128x128_S50000x128_1_0_0_1_n_n none L W (ix2 r q)
      = ∑ k : Fin 128, L (ix2 r k) * W (ix2 k q) :=
  Dot2.host_dotGeneral_mm_apply _ none L W r q

/-- The host's inverse root of a column, at an entry: the inverse root of the entry. -/
private theorem rsqrtCol_apply (v : FVec Ideal S50000x1 .f32) (i : S50000x1.Idx) :
    Host.rsqrt v i = Ideal.rsqrt (v i) := rfl

/-- refMlp at (r, q) is the spec's row function of row r. -/
theorem refMlp_apply (X A : FVec Ideal S50000x128 .f32) (W1 : FVec Ideal S128x128 .f32) (b1 : FVec Ideal S128 .f32)
    (W2 : FVec Ideal S128x128 .f32) (b2 : FVec Ideal S128 .f32) (r : Fin 50000) (q : Fin 128) :
    refMlp X A W1 b1 W2 b2 (ix2 r q)
      = mlpRow (fun k => X (ix2 r k)) (fun k => A (ix2 r k)) W1 (fun j => b1 (ix1 j)) W2 (fun j => b2 (ix1 j)) q := by
  unfold refMlp
  -- the outer affine map: the product's entry is the sum over the hidden feature k, the offset reads b2 at q
  rw [addf_apply, dot_apply, bcastRow_apply]
  show _ = (∑ k : Fin 128,
      max ((∑ j : Fin 128, (X (ix2 r j) + A (ix2 r j)) * W1 (ix2 j k)) + b1 (ix1 k)) 0 * W2 (ix2 k q)) + b2 (ix1 q)
  refine congrArg (· + b2 (ix1 q)) (Finset.sum_congr rfl fun k _ => ?_)
  refine congrArg (· * W2 (ix2 k q)) ?_
  -- the hidden entry (r, k): the rectifier of the inner affine map of the row X[r] + A[r]
  rw [maximumf_apply, splatTable_apply, Ideal.ofBits_zero_f32, addf_apply, dot_apply, bcastRow_apply]
  refine congrArg (fun t => max (t + b1 (ix1 k)) 0) (Finset.sum_congr rfl fun j _ => ?_)
  rw [addf_apply]

/-- refLn at (r, q) is the spec's normalisation of row r. -/
theorem refLn_apply (Z : FVec Ideal S50000x128 .f32) (g b : FVec Ideal S128 .f32) (r : Fin 50000) (q : Fin 128) :
    refLn Z g b (ix2 r q) = lnRow (fun k => Z (ix2 r k)) (fun j => g (ix1 j)) (fun j => b (ix1 j)) q := by
  -- the mean column at (r, 0) is the mean of the rectified row r
  have hmean : refMeanCol (refRelu Z) (ix2 r (0 : Fin 1)) = rowMean (fun k => Z (ix2 r k)) := by
    rw [refMeanCol_apply]
    unfold rowMean
    refine congrArg (fun t => Ideal.div t c128) (Finset.sum_congr rfl fun k _ => ?_)
    exact refRelu_apply Z _
  -- the centred table at (r, k) is the rectified entry minus that mean
  have hcen : ∀ k : Fin 128, subf (refRelu Z) (bcastCol (refMeanCol (refRelu Z))) (ix2 r k)
      = max (Z (ix2 r k)) 0 - rowMean (fun k => Z (ix2 r k)) := fun k => by
    rw [subf_apply, refRelu_apply, bcastCol_apply, hmean]
  -- the mean of the squared centred row is the row's variance
  have hvar : refMeanCol (mulf (subf (refRelu Z) (bcastCol (refMeanCol (refRelu Z))))
        (subf (refRelu Z) (bcastCol (refMeanCol (refRelu Z))))) (ix2 r (0 : Fin 1))
      = rowVar (fun k => Z (ix2 r k)) := by
    rw [refMeanCol_apply]
    unfold rowVar
    refine congrArg (fun t => Ideal.div t c128) (Finset.sum_congr rfl fun k _ => ?_)
    rw [mulf_apply, hcen]
  unfold refLn lnRow cEps
  rw [addf_apply, mulf_apply, mulf_apply, hcen, bcastCol_apply, rsqrtCol_apply, addf_apply, hvar, splatCol_apply,
    bcastRow_apply, bcastRow_apply]

/-- A normalised reference layer is the spec's layer. -/
theorem refLayerLn_eq (X A : FVec Ideal S50000x128 .f32) (W1 : FVec Ideal S128x128 .f32) (b1 : FVec Ideal S128 .f32)
    (W2 : FVec Ideal S128x128 .f32) (b2 g b : FVec Ideal S128 .f32) :
    refLn (refMlp X A W1 b1 W2 b2) g b
      = layerLn X A W1 (fun j => b1 (ix1 j)) W2 (fun j => b2 (ix1 j)) (fun j => g (ix1 j)) (fun j => b (ix1 j)) := by
  funext i
  obtain ⟨r, q, rfl⟩ : ∃ (r : Fin 50000) (q : Fin 128), i = ix2 r q := ⟨i 0, i 1, eq_ix2 i⟩
  rw [refLn_apply]
  unfold layerLn
  congr 1
  funext k
  exact refMlp_apply X A W1 b1 W2 b2 r k

/-- The last reference layer is the spec's un-normalised layer. -/
theorem refLayerMlp_eq (X A : FVec Ideal S50000x128 .f32) (W1 : FVec Ideal S128x128 .f32) (b1 : FVec Ideal S128 .f32)
    (W2 : FVec Ideal S128x128 .f32) (b2 : FVec Ideal S128 .f32) :
    refMlp X A W1 b1 W2 b2 = layerMlp X A W1 (fun j => b1 (ix1 j)) W2 (fun j => b2 (ix1 j)) := by
  funext i
  obtain ⟨r, q, rfl⟩ : ∃ (r : Fin 50000) (q : Fin 128), i = ix2 r q := ⟨i 0, i 1, eq_ix2 i⟩
  exact refMlp_apply X A W1 b1 W2 b2 r q

end Cert.Gin.RefLayer

end
-- ==== Proof.RefPool.lean ====
/-
  The reference's two segment sums over the batch vector, read at an entry. A scatter-add into an
  all-zero table lands update row n on table row B[n] (the word read signed) when that is a row of the
  table, and nowhere otherwise; so entry (g, d) of the result is the sum of the update's entries
  (n, d) over the nodes n whose word is g. For a graph id g below 512 "the word read signed is g" is
  "the word is the 32-bit numeral g", the indicator the spec uses.
-/
import proofs.«421258_j1958505087002_1_alg».proof.Proof.Gen.ReferenceIdeal
import proofs.«421258_j1958505087002_1_alg».proof.Proof.Spec

noncomputable section

open scoped BigOperators

namespace Cert.Gin.RefPool

open Idealize.ShloMosaic Idealize.ShloMosaic.ValueIdx Cert.ReferenceIdeal Cert.ReferenceIdeal.Facts₀ Cert.Gin

/-! ## A row scatter read at an entry

The dimension numbers of a segment sum: the table is G x D, the scatter indices N x 1 (one word per
update row), the updates N x D; the update's axis 1 is the window axis, the table's axis 0 is the
inserted one and the one the word names. -/

section Seg

variable {G N D w : Nat}

/-- Those dimension numbers over general sizes. -/
abbrev segDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

variable (wf : ScatterDims.WF ⟨2, ![G, D]⟩ ⟨2, ![N, 1]⟩ ⟨2, ![N, D]⟩ [1] [0] [0] 1)

/-- On the table's axis 0 the window of update (n, d') starts at row n's word, read signed. -/
private theorem seg_start0 (idx : IVec ⟨2, ![N, 1]⟩ w) (n : Fin N) (d' : Fin D) :
    (segDims G N D wf).start (ix2 n d') idx 0 = (idx (ix2 n ⟨0, Nat.one_pos⟩)).toInt := by
  unfold ScatterDims.start
  rw [dif_pos (show (0 : Fin 2) ∈ (segDims G N D wf).scatterDimsToOperandDims from List.mem_singleton.mpr rfl)]
  have hsi : (segDims G N D wf).siIdx (ix2 n d') ⟨List.idxOf (0 : Fin 2) (segDims G N D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the table's axis 1, which no word names, the window starts at 0. -/
private theorem seg_start1 (idx : IVec ⟨2, ![N, 1]⟩ w) (n : Fin N) (d' : Fin D) :
    (segDims G N D wf).start (ix2 n d') idx 1 = 0 := by
  unfold ScatterDims.start
  rw [dif_neg (show ¬ (1 : Fin 2) ∈ (segDims G N D wf).scatterDimsToOperandDims from
    (show ¬ (1 : Fin 2) ∈ [(0 : Fin 2)] by decide))]

/-- The inserted axis 0 carries window coordinate 0. -/
private theorem seg_window0 (n : Fin N) (d' : Fin D) : (segDims G N D wf).window (ix2 n d') 0 = 0 := by
  unfold ScatterDims.window
  rw [dif_neg (show ¬ (0 : Fin 2) ∈ (segDims G N D wf).sKept from
    (show ¬ (0 : Fin 2) ∈ (List.finRange 2).filter (· ∉ [(0 : Fin 2)]) by decide))]

/-- The kept axis 1 carries the update's own column d'. -/
private theorem seg_window1 (n : Fin N) (d' : Fin D) : (segDims G N D wf).window (ix2 n d') 1 = d'.val := by
  unfold ScatterDims.window
  rw [dif_pos (show (1 : Fin 2) ∈ (segDims G N D wf).sKept from
    (show (1 : Fin 2) ∈ (List.finRange 2).filter (· ∉ [(0 : Fin 2)]) by decide))]
  rfl

/-- The update index (n, d') lands on (g, d) exactly when row n's word, read signed, is g and d' = d. -/
private theorem seg_resultIdx_iff (idx : IVec ⟨2, ![N, 1]⟩ w) (n : Fin N) (d' d : Fin D) (g : Fin G) :
    (segDims G N D wf).resultIdx? (ix2 n d') idx = some (ix2 g d)
      ↔ (idx (ix2 n ⟨0, Nat.one_pos⟩)).toInt = (g.val : Int) ∧ d' = d := by
  unfold ScatterDims.resultIdx?
  constructor
  · intro h
    split at h
    · rename_i hin
      have hf := Option.some.inj h
      have h0 := congrArg (fun f => (f 0).val) hf
      have h1 := congrArg (fun f => (f 1).val) hf
      have hin0 := (hin 0).1
      simp only [seg_start0, seg_start1, seg_window0, seg_window1] at h0 h1 hin0
      have h0' : ((idx (ix2 n ⟨0, Nat.one_pos⟩)).toInt + ((0 : Nat) : Int)).toNat = g.val := h0
      have h1' : ((0 : Int) + (d'.val : Int)).toNat = d.val := h1
      refine ⟨by omega, Fin.ext (by omega)⟩
    · exact absurd h (by simp)
  · rintro ⟨ht, rfl⟩
    have hin : ∀ a, 0 ≤ (segDims G N D wf).start (ix2 n d') idx a + (segDims G N D wf).window (ix2 n d') a ∧
        (segDims G N D wf).start (ix2 n d') idx a + (segDims G N D wf).window (ix2 n d') a
          < (⟨2, ![G, D]⟩ : Shape).size a := by
      intro a
      match a with
      | ⟨0, _⟩ =>
        have e0 := seg_start0 wf idx n d'
        have e1 := seg_window0 wf n d'
        have hg : g.val < G := g.isLt
        show 0 ≤ (segDims G N D wf).start (ix2 n d') idx 0 + (((segDims G N D wf).window (ix2 n d') 0 : Nat) : Int) ∧
          (segDims G N D wf).start (ix2 n d') idx 0 + (((segDims G N D wf).window (ix2 n d') 0 : Nat) : Int) < ((G : Nat) : Int)
        rw [e0, e1, ht]; omega
      | ⟨1, _⟩ =>
        have e0 := seg_start1 wf idx n d'
        have e1 := seg_window1 wf n d'
        have hd : d'.val < D := d'.isLt
        show 0 ≤ (segDims G N D wf).start (ix2 n d') idx 1 + (((segDims G N D wf).window (ix2 n d') 1 : Nat) : Int) ∧
          (segDims G N D wf).start (ix2 n d') idx 1 + (((segDims G N D wf).window (ix2 n d') 1 : Nat) : Int) < ((D : Nat) : Int)
        rw [e0, e1]; omega
    rw [dif_pos hin]
    refine congrArg some (funext fun a => Fin.ext ?_)
    match a with
    | ⟨0, _⟩ =>
      show ((segDims G N D wf).start (ix2 n d') idx 0 + (((segDims G N D wf).window (ix2 n d') 0 : Nat) : Int)).toNat = g.val
      rw [seg_start0, seg_window0, ht]; omega
    | ⟨1, _⟩ =>
      show ((segDims G N D wf).start (ix2 n d') idx 1 + (((segDims G N D wf).window (ix2 n d') 1 : Nat) : Int)).toNat = d'.val
      rw [seg_start1, seg_window1]; omega

/-- The scatter-add read at (g, d): the operand there plus the update's column d over the rows whose word is g. -/
theorem seg_scatterAdd_apply (x : FVec Ideal ⟨2, ![G, D]⟩ .f32) (idx : IVec ⟨2, ![N, 1]⟩ w)
    (upd : FVec Ideal ⟨2, ![N, D]⟩ .f32) (g : Fin G) (d : Fin D) :
    Host.scatterAdd (segDims G N D wf) x idx upd (ix2 g d)
      = x (ix2 g d) + ∑ n : Fin N, if (idx (ix2 n ⟨0, Nat.one_pos⟩)).toInt = (g.val : Int) then upd (ix2 n d) else 0 := by
  show Ideal.hostScatterAdd (segDims G N D wf) x idx upd (ix2 g d) = _
  unfold Ideal.hostScatterAdd
  refine congrArg (fun z => x (ix2 g d) + z) ?_
  rw [Finset.sum_filter, sum_idx2]
  refine Finset.sum_congr rfl fun n _ => ?_
  by_cases ht : (idx (ix2 n ⟨0, Nat.one_pos⟩)).toInt = (g.val : Int)
  · rw [if_pos ht, Finset.sum_eq_single d]
    · rw [if_pos ((seg_resultIdx_iff wf idx n d d g).2 ⟨ht, rfl⟩)]
    · intro d' _ hne
      rw [if_neg (fun h => hne ((seg_resultIdx_iff wf idx n d' d g).1 h).2)]
    · intro h; exact absurd (Finset.mem_univ d) h
  · rw [if_neg ht]
    refine Finset.sum_eq_zero fun d' _ => ?_
    rw [if_neg (fun h => ht ((seg_resultIdx_iff wf idx n d' d g).1 h).1)]

end Seg

/-! ## Words and constants -/

/-- For a graph id below 512, "the word read signed is g" is "the word is the 32-bit numeral g":
    the numeral's signed reading is g itself (g is below 2^31), and the signed reading is injective. -/
private theorem toInt_eq_iff (w : BitVec 32) (g : Fin 512) : w.toInt = (g.val : Int) ↔ w = BitVec.ofNat 32 g.val := by
  have hg : (BitVec.ofNat 32 g.val).toInt = (g.val : Int) := by
    have hlt := g.isLt
    have hm : g.val % 2 ^ 32 = g.val := Nat.mod_eq_of_lt (by omega)
    rw [BitVec.toInt_eq_toNat_cond, BitVec.toNat_ofNat, hm, if_pos (by omega)]
  rw [← hg]
  exact BitVec.toInt_inj

/-- The word 0x3F800000 (sign 0, exponent field 127, fraction 0) denotes 2^23 · 2^(-23) = 1. -/
private theorem ofBits_one_f32 : Ideal.ofBits .f32 0x3F800000#32 = 1 := by
  simp [Ideal.ofBits, Ideal.ieee]
  rw [← EReal.coe_mul, ← EReal.coe_one]
  refine congrArg _ ?_
  norm_num

/-- The batch vector as a column, at (n, 0), is the vector at n. -/
private theorem batch_col_apply (B : IVec S50000 32) (n : Fin 50000) :
    broadcastInDim S50000x1 ![0] bcast_S50000_S50000x1_0 B (ix2 n ⟨0, Nat.one_pos⟩) = B (ix1 n) := by
  unfold broadcastInDim
  refine congrArg B (funext fun a => Fin.ext ?_)
  obtain rfl : a = 0 := Subsingleton.elim _ _
  rfl

/-- The signed-reading indicator is the spec's indicator. -/
private theorem ite_toInt_eq_oh (wd : BitVec 32) (g : Fin 512) (x : EReal) :
    (if wd.toInt = (g.val : Int) then x else 0) = oh wd g * x := by
  unfold oh
  by_cases hw : wd = BitVec.ofNat 32 g.val
  · rw [if_pos hw, if_pos ((toInt_eq_iff wd g).2 hw), one_mul]
  · rw [if_neg hw, if_neg (fun h => hw ((toInt_eq_iff wd g).1 h)), zero_mul]

/-! ## The reference's two scatter-adds -/

/-- The scatter-add of the rows of E by the batch words into a zero 512 x 128 table, at (g, d). -/
theorem ref_sums_apply (E : FVec Ideal S50000x128 .f32) (B : IVec S50000 32) (g : Fin 512) (d : Fin 128) :
    Host.scatterAdd scatter_S512x128_S50000x1_S50000x128_1_0_0_1
        (broadcastInDim S512x128 ![] bcast_S_S512x128 (constant (F := Ideal) S_ .f32 0x00000000#32))
        (broadcastInDim S50000x1 ![0] bcast_S50000_S50000x1_0 B) E (ix2 g d)
      = ∑ n : Fin 50000, oh (B (ix1 n)) g * E (ix2 n d) := by
  refine (seg_scatterAdd_apply scatter_S512x128_S50000x1_S50000x128_1_0_0_1_wf _ _ E g d).trans ?_
  have hz : (broadcastInDim S512x128 ![] bcast_S_S512x128 (constant (F := Ideal) S_ .f32 0x00000000#32)) (ix2 g d)
      = (0 : EReal) := Ideal.ofBits_zero_f32
  rw [hz, zero_add]
  refine Finset.sum_congr rfl fun n _ => ?_
  rw [batch_col_apply B n]
  exact ite_toInt_eq_oh (B (ix1 n)) g (E (ix2 n d))

/-- The scatter-add of a column of ones by the batch words into a zero 512 x 1 table, at (g, 0). -/
theorem ref_cnts_apply (B : IVec S50000 32) (g : Fin 512) :
    Host.scatterAdd scatter_S512x1_S50000x1_S50000x1_1_0_0_1
        (broadcastInDim S512x1 ![] bcast_S_S512x1 (constant (F := Ideal) S_ .f32 0x00000000#32))
        (broadcastInDim S50000x1 ![0] bcast_S50000_S50000x1_0 B)
        (broadcastInDim S50000x1 ![] bcast_S_S50000x1 (constant (F := Ideal) S_ .f32 0x3F800000#32)) (ix2 g 0)
      = poolCnts (fun n => B (ix1 n)) g := by
  refine (seg_scatterAdd_apply scatter_S512x1_S50000x1_S50000x1_1_0_0_1_wf _ _ _ g 0).trans ?_
  have hz : (broadcastInDim S512x1 ![] bcast_S_S512x1 (constant (F := Ideal) S_ .f32 0x00000000#32)) (ix2 g 0)
      = (0 : EReal) := Ideal.ofBits_zero_f32
  rw [hz, zero_add]
  unfold poolCnts
  refine Finset.sum_congr rfl fun n _ => ?_
  have hone : (broadcastInDim S50000x1 ![] bcast_S_S50000x1 (constant (F := Ideal) S_ .f32 0x3F800000#32)) (ix2 n 0)
      = (1 : EReal) := ofBits_one_f32
  rw [batch_col_apply B n, hone]
  exact (ite_toInt_eq_oh (B (ix1 n)) g 1).trans (mul_one _)

end Cert.Gin.RefPool

end
-- ==== Proof.RefHead.lean ====
/-
  The reference's pooled sums and counts as the spec's functions of the embedding table and the
  batch vector: the scatter-add of the rectified rows is, per graph and feature, the spec's sum over
  the graph's nodes, and the scatter-add of ones its node count.
-/
import proofs.«421258_j1958505087002_1_alg».proof.Proof.Gen.ReferenceIdeal
import proofs.«421258_j1958505087002_1_alg».proof.Proof.Spec
import proofs.«421258_j1958505087002_1_alg».proof.Proof.RefPool
import Idealize.ShloMosaic.Lib.Pipeline.Value

noncomputable section

open scoped BigOperators

namespace Cert.Gin.RefHead

open Idealize.ShloMosaic Idealize.ShloMosaic.ValueIdx Cert.ReferenceIdeal Cert.ReferenceIdeal.Facts₀ Cert.Gin

/-- The reference's per-graph sums of the rectified table E, as a 512 x 128 array. -/
theorem ref_sums_eq (E : FVec Ideal S50000x128 .f32) (B : IVec S50000 32) :
    Host.scatterAdd scatter_S512x128_S50000x1_S50000x128_1_0_0_1
        (broadcastInDim S512x128 ![] bcast_S_S512x128 (constant (F := Ideal) S_ .f32 0x00000000#32))
        (broadcastInDim S50000x1 ![0] bcast_S50000_S50000x1_0 B)
        (maximumf E (broadcastInDim S50000x128 ![] bcast_S_S50000x128 (constant (F := Ideal) S_ .f32 0x00000000#32)))
      = fun i => poolSums E (fun n => B (ix1 n)) (i 0) (i 1) := by
  funext i
  obtain ⟨g, d, rfl⟩ : ∃ (g : Fin 512) (d : Fin 128), i = ix2 g d := ⟨i 0, i 1, eq_ix2 i⟩
  -- entry (g, d) is the sum over the nodes n of the indicator of graph g times the update's entry (n, d)
  rw [RefPool.ref_sums_apply]
  show _ = poolSums E (fun n => B (ix1 n)) g d
  unfold poolSums
  refine Finset.sum_congr rfl fun n _ => ?_
  refine congrArg (oh (B (ix1 n)) g * ·) ?_
  -- the update's entry is the larger of E's entry and the zero constant
  rw [maximumf_apply]
  refine congrArg (max (E (ix2 n d))) ?_
  exact (broadcastInDim_apply _ bcast_S_S50000x128 _ (ix2 n d) (fun a => a.elim0) (fun a => a.elim0)).trans
    Ideal.ofBits_zero_f32

/-- The reference's per-graph node counts, as a 512 x 1 array. -/
theorem ref_cnts_eq (B : IVec S50000 32) :
    Host.scatterAdd scatter_S512x1_S50000x1_S50000x1_1_0_0_1
        (broadcastInDim S512x1 ![] bcast_S_S512x1 (constant (F := Ideal) S_ .f32 0x00000000#32))
        (broadcastInDim S50000x1 ![0] bcast_S50000_S50000x1_0 B)
        (broadcastInDim S50000x1 ![] bcast_S_S50000x1 (constant (F := Ideal) S_ .f32 0x3F800000#32))
      = fun i => poolCnts (fun n => B (ix1 n)) (i 0) := by
  funext i
  obtain ⟨g, u, rfl⟩ : ∃ (g : Fin 512) (u : Fin 1), i = ix2 g u := ⟨i 0, i 1, eq_ix2 i⟩
  -- the column has one feature coordinate, which is 0
  obtain rfl : u = 0 := Fin.fin_one_eq_zero u
  exact RefPool.ref_cnts_apply B g

end Cert.Gin.RefHead

end
-- ==== Proof.RefValue.lean ====
/-
  The reference's two results as the spec's functions of the arguments.

  The reference's run ends with every buffer at the fold of its 180 host operations over the launch
  memory. The fold is read in four stretches: three layers (the neighbour aggregation carried whole as
  aggR, the two affine maps, and for the first two layers the normalisation), then the two segment
  sums over the batch vector and the head (carried whole as tailR). Each stretch's result is a function
  of a few buffers of the stretch before; an argument buffer is written by no operation. Layer by layer
  the host operations are the spec's row functions; the segment sums are the spec's per-graph sums
  and counts.
-/
import proofs.«421258_j1958505087002_1_alg».proof.Proof.RefOps
import proofs.«421258_j1958505087002_1_alg».proof.Proof.RefLayer
import proofs.«421258_j1958505087002_1_alg».proof.Proof.RefHead

set_option maxRecDepth 16384

noncomputable section

namespace Cert.Gin.RefValue

open Idealize.ShloMosaic Idealize.ShloMosaic.TcCoe Idealize.ShloMosaic.ValueIdx Idealize.SL.Sem Idealize.ShloMosaic.StableHlo
open Cert.ReferenceIdeal Cert.ReferenceIdeal.Facts₀ Cert.ReferenceIdeal.RunCut Cert.Gin Cert.Gin.RefLayer

variable {F : FTy → Type} [FloatOps F]

/-- Neighbour sums of a node table, as the reference prints them (the same operations as the kernel program's). -/
def aggR (h : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The row-wise log-softmax of a 512 x 10 table, as the reference prints it. -/
def logSoftmaxR (x : FVec F S512x10 .f32) : FVec F S512x10 .f32 :=
  subf (subf x (broadcastInDim S512x10 ![0, 1] bcast_S512x1_S512x10_0_1 (broadcastInDim S512x1 ![0] bcast_S512_S512x1_0
      (maximumf (broadcastInDim S512 ![] bcast_S_S512 (constant S_ .f32 0xFF800000#32))
        (Host.reduce FloatOps.maximumf x (constant S_ .f32 0xFF800000#32) reducesTo_S512x10_S512_d1 h_S_)))))
    (broadcastInDim S512x10 ![0, 1] bcast_S512x1_S512x10_0_1 (Host.log (broadcastInDim S512x1 ![0] bcast_S512_S512x1_0
      (Host.reduceAdd (Host.exp (subf x (broadcastInDim S512x10 ![0, 1] bcast_S512x1_S512x10_0_1 (broadcastInDim S512x1 ![0] bcast_S512_S512x1_0
        (maximumf (broadcastInDim S512 ![] bcast_S_S512 (constant S_ .f32 0xFF800000#32))
          (Host.reduce FloatOps.maximumf x (constant S_ .f32 0xFF800000#32) reducesTo_S512x10_S512_d1 h_S_))))))
        (constant S_ .f32 0x00000000#32) reducesTo_S512x10_S512_d1 h_S_))))

/-- The head after the pool, as the reference prints it. -/
def tailR (sums : FVec F S512x128 .f32) (cnts : FVec F S512x1 .f32) (Wp1 : FVec F S128x128 .f32) (bp1 : FVec F S128 .f32)
    (Wp2 : FVec F S128x10 .f32) (bp2 : FVec F S10 .f32) : FVec F S512x10 .f32 :=
  logSoftmaxR (addf (Host.dotGeneral dot_S512x128_S128x10_S512x10_1_0_0_1_n_n none
      (addf (Host.dotGeneral dot_S512x128_S128x128_S512x128_1_0_0_1_n_n none
          (Host.divf sums (broadcastInDim S512x128 ![0, 1] bcast_S512x1_S512x128_0_1
            (maximumf cnts (broadcastInDim S512x1 ![] bcast_S_S512x1 (constant S_ .f32 0x3F800000#32))))) Wp1)
        (broadcastInDim S512x128 ![0, 1] bcast_S1x128_S512x128_0_1 (broadcastInDim S1x128 ![1] bcast_S128_S1x128_1 bp1))) Wp2)
    (broadcastInDim S512x10 ![0, 1] bcast_S1x10_S512x10_0_1 (broadcastInDim S1x10 ![1] bcast_S10_S1x10_1 bp2)))

/-! ## The fold, stretch by stretch -/

/-- Operations run one after the other fold one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

section Fold

variable (V : Valuation τ sig (Elt F))

theorem after_ops : after (ops (F := F)) V = after ops3 (after ops2 (after ops1 (after ops0 V))) := by
  show after (ops0 ++ (ops1 ++ (ops2 ++ ops3))) V = _
  rw [after_append, after_append, after_append]

/-- The buffers after the first layer's operations. -/
def R1 : Valuation τ sig (Elt F) := after ops0 V
/-- … after the second layer's. -/
def R2 : Valuation τ sig (Elt F) := after ops1 (R1 V)
/-- … after the third layer's. -/
def R3 : Valuation τ sig (Elt F) := after ops2 (R2 V)

theorem R1_arg1 : R1 V (Proc.devRef .tc main_arg1) = V (Proc.devRef .tc main_arg1) := by
  unfold R1; after_results_simp; first | done | rfl
theorem R1_arg2 : R1 V (Proc.devRef .tc main_arg2) = V (Proc.devRef .tc main_arg2) := by
  unfold R1; after_results_simp; first | done | rfl
theorem R1_arg3 : R1 V (Proc.devRef .tc main_arg3) = V (Proc.devRef .tc main_arg3) := by
  unfold R1; after_results_simp; first | done | rfl
theorem R1_arg8 : R1 V (Proc.devRef .tc main_arg8) = V (Proc.devRef .tc main_arg8) := by
  unfold R1; after_results_simp; first | done | rfl
theorem R1_arg9 : R1 V (Proc.devRef .tc main_arg9) = V (Proc.devRef .tc main_arg9) := by
  unfold R1; after_results_simp; first | done | rfl
theorem R1_arg10 : R1 V (Proc.devRef .tc main_arg10) = V (Proc.devRef .tc main_arg10) := by
  unfold R1; after_results_simp; first | done | rfl
theorem R1_arg11 : R1 V (Proc.devRef .tc main_arg11) = V (Proc.devRef .tc main_arg11) := by
  unfold R1; after_results_simp; first | done | rfl
theorem R1_arg12 : R1 V (Proc.devRef .tc main_arg12) = V (Proc.devRef .tc main_arg12) := by
  unfold R1; after_results_simp; first | done | rfl
theorem R1_arg13 : R1 V (Proc.devRef .tc main_arg13) = V (Proc.devRef .tc main_arg13) := by
  unfold R1; after_results_simp; first | done | rfl
theorem R1_arg14 : R1 V (Proc.devRef .tc main_arg14) = V (Proc.devRef .tc main_arg14) := by
  unfold R1; after_results_simp; first | done | rfl
theorem R1_arg15 : R1 V (Proc.devRef .tc main_arg15) = V (Proc.devRef .tc main_arg15) := by
  unfold R1; after_results_simp; first | done | rfl
theorem R1_arg18 : R1 V (Proc.devRef .tc main_arg18) = V (Proc.devRef .tc main_arg18) := by
  unfold R1; after_results_simp; first | done | rfl
theorem R1_arg19 : R1 V (Proc.devRef .tc main_arg19) = V (Proc.devRef .tc main_arg19) := by
  unfold R1; after_results_simp; first | done | rfl
theorem R1_arg20 : R1 V (Proc.devRef .tc main_arg20) = V (Proc.devRef .tc main_arg20) := by
  unfold R1; after_results_simp; first | done | rfl
theorem R1_arg21 : R1 V (Proc.devRef .tc main_arg21) = V (Proc.devRef .tc main_arg21) := by
  unfold R1; after_results_simp; first | done | rfl
theorem R1_arg22 : R1 V (Proc.devRef .tc main_arg22) = V (Proc.devRef .tc main_arg22) := by
  unfold R1; after_results_simp; first | done | rfl
theorem R1_arg23 : R1 V (Proc.devRef .tc main_arg23) = V (Proc.devRef .tc main_arg23) := by
  unfold R1; after_results_simp; first | done | rfl

set_option maxHeartbeats 8000000 in
theorem R1_v46 : R1 V (Proc.devRef .tc main_v46)
    = refLn (refMlp (V (Proc.devRef .tc main_arg0)) (aggR (V (Proc.devRef .tc main_arg0)) (V (Proc.devRef .tc main_arg1)) (V (Proc.devRef .tc main_arg2))) (V (Proc.devRef .tc main_arg4)) (V (Proc.devRef .tc main_arg5)) (V (Proc.devRef .tc main_arg6)) (V (Proc.devRef .tc main_arg7))) (V (Proc.devRef .tc main_arg16)) (V (Proc.devRef .tc main_arg17)) := by
  unfold R1; after_results_simp; first | done | rfl

theorem R2_arg1 : R2 V (Proc.devRef .tc main_arg1) = V (Proc.devRef .tc main_arg1) := by
  unfold R2; after_results_simp; first | done | exact R1_arg1 V | rfl
theorem R2_arg2 : R2 V (Proc.devRef .tc main_arg2) = V (Proc.devRef .tc main_arg2) := by
  unfold R2; after_results_simp; first | done | exact R1_arg2 V | rfl
theorem R2_arg3 : R2 V (Proc.devRef .tc main_arg3) = V (Proc.devRef .tc main_arg3) := by
  unfold R2; after_results_simp; first | done | exact R1_arg3 V | rfl
theorem R2_arg12 : R2 V (Proc.devRef .tc main_arg12) = V (Proc.devRef .tc main_arg12) := by
  unfold R2; after_results_simp; first | done | exact R1_arg12 V | rfl
theorem R2_arg13 : R2 V (Proc.devRef .tc main_arg13) = V (Proc.devRef .tc main_arg13) := by
  unfold R2; after_results_simp; first | done | exact R1_arg13 V | rfl
theorem R2_arg14 : R2 V (Proc.devRef .tc main_arg14) = V (Proc.devRef .tc main_arg14) := by
  unfold R2; after_results_simp; first | done | exact R1_arg14 V | rfl
theorem R2_arg15 : R2 V (Proc.devRef .tc main_arg15) = V (Proc.devRef .tc main_arg15) := by
  unfold R2; after_results_simp; first | done | exact R1_arg15 V | rfl
theorem R2_arg20 : R2 V (Proc.devRef .tc main_arg20) = V (Proc.devRef .tc main_arg20) := by
  unfold R2; after_results_simp; first | done | exact R1_arg20 V | rfl
theorem R2_arg21 : R2 V (Proc.devRef .tc main_arg21) = V (Proc.devRef .tc main_arg21) := by
  unfold R2; after_results_simp; first | done | exact R1_arg21 V | rfl
theorem R2_arg22 : R2 V (Proc.devRef .tc main_arg22) = V (Proc.devRef .tc main_arg22) := by
  unfold R2; after_results_simp; first | done | exact R1_arg22 V | rfl
theorem R2_arg23 : R2 V (Proc.devRef .tc main_arg23) = V (Proc.devRef .tc main_arg23) := by
  unfold R2; after_results_simp; first | done | exact R1_arg23 V | rfl

set_option maxHeartbeats 8000000 in
theorem R2_v93 : R2 V (Proc.devRef .tc main_v93)
    = refLn (refMlp (R1 V (Proc.devRef .tc main_v46)) (aggR (R1 V (Proc.devRef .tc main_v46)) (V (Proc.devRef .tc main_arg1)) (V (Proc.devRef .tc main_arg2))) (V (Proc.devRef .tc main_arg8)) (V (Proc.devRef .tc main_arg9)) (V (Proc.devRef .tc main_arg10)) (V (Proc.devRef .tc main_arg11))) (V (Proc.devRef .tc main_arg18)) (V (Proc.devRef .tc main_arg19)) := by
  unfold R2; after_results_simp
  rw [R1_arg1, R1_arg2, R1_arg8, R1_arg9, R1_arg10, R1_arg11, R1_arg18, R1_arg19]; rfl

theorem R3_arg3 : R3 V (Proc.devRef .tc main_arg3) = V (Proc.devRef .tc main_arg3) := by
  unfold R3; after_results_simp; first | done | exact R2_arg3 V | rfl
theorem R3_arg20 : R3 V (Proc.devRef .tc main_arg20) = V (Proc.devRef .tc main_arg20) := by
  unfold R3; after_results_simp; first | done | exact R2_arg20 V | rfl
theorem R3_arg21 : R3 V (Proc.devRef .tc main_arg21) = V (Proc.devRef .tc main_arg21) := by
  unfold R3; after_results_simp; first | done | exact R2_arg21 V | rfl
theorem R3_arg22 : R3 V (Proc.devRef .tc main_arg22) = V (Proc.devRef .tc main_arg22) := by
  unfold R3; after_results_simp; first | done | exact R2_arg22 V | rfl
theorem R3_arg23 : R3 V (Proc.devRef .tc main_arg23) = V (Proc.devRef .tc main_arg23) := by
  unfold R3; after_results_simp; first | done | exact R2_arg23 V | rfl

set_option maxHeartbeats 8000000 in
theorem R3_v114 : R3 V (Proc.devRef .tc main_v114)
    = refMlp (R2 V (Proc.devRef .tc main_v93)) (aggR (R2 V (Proc.devRef .tc main_v93)) (V (Proc.devRef .tc main_arg1)) (V (Proc.devRef .tc main_arg2))) (V (Proc.devRef .tc main_arg12)) (V (Proc.devRef .tc main_arg13)) (V (Proc.devRef .tc main_arg14)) (V (Proc.devRef .tc main_arg15)) := by
  unfold R3; after_results_simp
  rw [R2_arg1, R2_arg2, R2_arg12, R2_arg13, R2_arg14, R2_arg15]; rfl

theorem end_v114 : after (ops (F := F)) V (Proc.devRef .tc main_v114) = R3 V (Proc.devRef .tc main_v114) := by
  rw [after_ops]; show after ops3 (R3 V) _ = _; after_results_simp; first | done | rfl

set_option maxHeartbeats 16000000 in
theorem end_v136 : after (ops (F := F)) V (Proc.devRef .tc main_v136)
    = tailR
        (Host.scatterAdd scatter_S512x128_S50000x1_S50000x128_1_0_0_1
          (broadcastInDim S512x128 ![] bcast_S_S512x128 (constant S_ .f32 0x00000000#32))
          (broadcastInDim S50000x1 ![0] bcast_S50000_S50000x1_0 (V (Proc.devRef .tc main_arg3)))
          (maximumf (R3 V (Proc.devRef .tc main_v114)) (broadcastInDim S50000x128 ![] bcast_S_S50000x128 (constant S_ .f32 0x00000000#32))))
        (Host.scatterAdd scatter_S512x1_S50000x1_S50000x1_1_0_0_1
          (broadcastInDim S512x1 ![] bcast_S_S512x1 (constant S_ .f32 0x00000000#32))
          (broadcastInDim S50000x1 ![0] bcast_S50000_S50000x1_0 (V (Proc.devRef .tc main_arg3)))
          (broadcastInDim S50000x1 ![] bcast_S_S50000x1 (constant S_ .f32 0x3F800000#32)))
        (V (Proc.devRef .tc main_arg20)) (V (Proc.devRef .tc main_arg21)) (V (Proc.devRef .tc main_arg22)) (V (Proc.devRef .tc main_arg23)) := by
  rw [after_ops]; show after ops3 (R3 V) _ = _; after_results_simp
  rw [R3_arg3, R3_arg20, R3_arg21, R3_arg22, R3_arg23]; rfl

/-! ### No operation writes an argument -/

theorem kept_arg0 : after (ops (F := F)) V (Proc.devRef .tc main_arg0) = V (Proc.devRef .tc main_arg0) := by
  rw [after_ops]; after_results_simp; first | done | rfl
theorem kept_arg1 : after (ops (F := F)) V (Proc.devRef .tc main_arg1) = V (Proc.devRef .tc main_arg1) := by
  rw [after_ops]; after_results_simp; first | done | rfl
theorem kept_arg2 : after (ops (F := F)) V (Proc.devRef .tc main_arg2) = V (Proc.devRef .tc main_arg2) := by
  rw [after_ops]; after_results_simp; first | done | rfl
theorem kept_arg3 : after (ops (F := F)) V (Proc.devRef .tc main_arg3) = V (Proc.devRef .tc main_arg3) := by
  rw [after_ops]; after_results_simp; first | done | rfl
theorem kept_arg4 : after (ops (F := F)) V (Proc.devRef .tc main_arg4) = V (Proc.devRef .tc main_arg4) := by
  rw [after_ops]; after_results_simp; first | done | rfl
theorem kept_arg5 : after (ops (F := F)) V (Proc.devRef .tc main_arg5) = V (Proc.devRef .tc main_arg5) := by
  rw [after_ops]; after_results_simp; first | done | rfl
theorem kept_arg6 : after (ops (F := F)) V (Proc.devRef .tc main_arg6) = V (Proc.devRef .tc main_arg6) := by
  rw [after_ops]; after_results_simp; first | done | rfl
theorem kept_arg7 : after (ops (F := F)) V (Proc.devRef .tc main_arg7) = V (Proc.devRef .tc main_arg7) := by
  rw [after_ops]; after_results_simp; first | done | rfl
theorem kept_arg8 : after (ops (F := F)) V (Proc.devRef .tc main_arg8) = V (Proc.devRef .tc main_arg8) := by
  rw [after_ops]; after_results_simp; first | done | rfl
theorem kept_arg9 : after (ops (F := F)) V (Proc.devRef .tc main_arg9) = V (Proc.devRef .tc main_arg9) := by
  rw [after_ops]; after_results_simp; first | done | rfl
theorem kept_arg10 : after (ops (F := F)) V (Proc.devRef .tc main_arg10) = V (Proc.devRef .tc main_arg10) := by
  rw [after_ops]; after_results_simp; first | done | rfl
theorem kept_arg11 : after (ops (F := F)) V (Proc.devRef .tc main_arg11) = V (Proc.devRef .tc main_arg11) := by
  rw [after_ops]; after_results_simp; first | done | rfl
theorem kept_arg12 : after (ops (F := F)) V (Proc.devRef .tc main_arg12) = V (Proc.devRef .tc main_arg12) := by
  rw [after_ops]; after_results_simp; first | done | rfl
theorem kept_arg13 : after (ops (F := F)) V (Proc.devRef .tc main_arg13) = V (Proc.devRef .tc main_arg13) := by
  rw [after_ops]; after_results_simp; first | done | rfl
theorem kept_arg14 : after (ops (F := F)) V (Proc.devRef .tc main_arg14) = V (Proc.devRef .tc main_arg14) := by
  rw [after_ops]; after_results_simp; first | done | rfl
theorem kept_arg15 : after (ops (F := F)) V (Proc.devRef .tc main_arg15) = V (Proc.devRef .tc main_arg15) := by
  rw [after_ops]; after_results_simp; first | done | rfl
theorem kept_arg16 : after (ops (F := F)) V (Proc.devRef .tc main_arg16) = V (Proc.devRef .tc main_arg16) := by
  rw [after_ops]; after_results_simp; first | done | rfl
theorem kept_arg17 : after (ops (F := F)) V (Proc.devRef .tc main_arg17) = V (Proc.devRef .tc main_arg17) := by
  rw [after_ops]; after_results_simp; first | done | rfl
theorem kept_arg18 : after (ops (F := F)) V (Proc.devRef .tc main_arg18) = V (Proc.devRef .tc main_arg18) := by
  rw [after_ops]; after_results_simp; first | done | rfl
theorem kept_arg19 : after (ops (F := F)) V (Proc.devRef .tc main_arg19) = V (Proc.devRef .tc main_arg19) := by
  rw [after_ops]; after_results_simp; first | done | rfl
theorem kept_arg20 : after (ops (F := F)) V (Proc.devRef .tc main_arg20) = V (Proc.devRef .tc main_arg20) := by
  rw [after_ops]; after_results_simp; first | done | rfl
theorem kept_arg21 : after (ops (F := F)) V (Proc.devRef .tc main_arg21) = V (Proc.devRef .tc main_arg21) := by
  rw [after_ops]; after_results_simp; first | done | rfl
theorem kept_arg22 : after (ops (F := F)) V (Proc.devRef .tc main_arg22) = V (Proc.devRef .tc main_arg22) := by
  rw [after_ops]; after_results_simp; first | done | rfl
theorem kept_arg23 : after (ops (F := F)) V (Proc.devRef .tc main_arg23) = V (Proc.devRef .tc main_arg23) := by
  rw [after_ops]; after_results_simp; first | done | rfl

end Fold

variable (m : (ℓ : Loc nD τ sig) → Buf (Elt Ideal) ℓ) (c : Dev nD)

/-- The reference's node table after its first normalised layer, as host operations. -/
def H0r : FVec Ideal S50000x128 .f32 :=
  refLn (refMlp (m ((c : Thread nD τ).loc main_arg0)) (aggR (m ((c : Thread nD τ).loc main_arg0)) (m ((c : Thread nD τ).loc main_arg1)) (m ((c : Thread nD τ).loc main_arg2))) (m ((c : Thread nD τ).loc main_arg4)) (m ((c : Thread nD τ).loc main_arg5)) (m ((c : Thread nD τ).loc main_arg6)) (m ((c : Thread nD τ).loc main_arg7))) (m ((c : Thread nD τ).loc main_arg16)) (m ((c : Thread nD τ).loc main_arg17))

/-- … after its second normalised layer. -/
def H1r : FVec Ideal S50000x128 .f32 :=
  refLn (refMlp (H0r m c) (aggR (H0r m c) (m ((c : Thread nD τ).loc main_arg1)) (m ((c : Thread nD τ).loc main_arg2))) (m ((c : Thread nD τ).loc main_arg8)) (m ((c : Thread nD τ).loc main_arg9)) (m ((c : Thread nD τ).loc main_arg10)) (m ((c : Thread nD τ).loc main_arg11))) (m ((c : Thread nD τ).loc main_arg18)) (m ((c : Thread nD τ).loc main_arg19))

/-- The reference's embedding. -/
def EMBr : FVec Ideal S50000x128 .f32 :=
  refMlp (H1r m c) (aggR (H1r m c) (m ((c : Thread nD τ).loc main_arg1)) (m ((c : Thread nD τ).loc main_arg2))) (m ((c : Thread nD τ).loc main_arg12)) (m ((c : Thread nD τ).loc main_arg13)) (m ((c : Thread nD τ).loc main_arg14)) (m ((c : Thread nD τ).loc main_arg15))

/-- The reference's log-probabilities. -/
def LOGPr : FVec Ideal S512x10 .f32 :=
  tailR
    (Host.scatterAdd scatter_S512x128_S50000x1_S50000x128_1_0_0_1
      (broadcastInDim S512x128 ![] bcast_S_S512x128 (constant (F := Ideal) S_ .f32 0x00000000#32))
      (broadcastInDim S50000x1 ![0] bcast_S50000_S50000x1_0 (m ((c : Thread nD τ).loc main_arg3)))
      (maximumf (EMBr m c) (broadcastInDim S50000x128 ![] bcast_S_S50000x128 (constant (F := Ideal) S_ .f32 0x00000000#32))))
    (Host.scatterAdd scatter_S512x1_S50000x1_S50000x1_1_0_0_1
      (broadcastInDim S512x1 ![] bcast_S_S512x1 (constant (F := Ideal) S_ .f32 0x00000000#32))
      (broadcastInDim S50000x1 ![0] bcast_S50000_S50000x1_0 (m ((c : Thread nD τ).loc main_arg3)))
      (broadcastInDim S50000x1 ![] bcast_S_S50000x1 (constant (F := Ideal) S_ .f32 0x3F800000#32)))
    (m ((c : Thread nD τ).loc main_arg20)) (m ((c : Thread nD τ).loc main_arg21)) (m ((c : Thread nD τ).loc main_arg22)) (m ((c : Thread nD τ).loc main_arg23))

/-- The fold's first result is that composition. -/
theorem res0_eq : after (ops (F := Ideal)) (launchContents m c) (Proc.devRef .tc main_v114) = EMBr m c := by
  rw [end_v114, R3_v114, R2_v93, R1_v46]; rfl

/-- The fold's second result is that composition. -/
theorem res1_eq : after (ops (F := Ideal)) (launchContents m c) (Proc.devRef .tc main_v136) = LOGPr m c := by
  rw [end_v136, R3_v114, R2_v93, R1_v46]; rfl

/-- On every device, from any memory with zero counters: every weakly fair execution of the reference's
    @main terminates with its two results at those compositions and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = EMBr m c
      ∧ r.2.mem ((c.tc : Thread nD τ).loc main_v136) = LOGPr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v114).trans (res0_eq m c), (h c main_v136).trans (res1_eq m c),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c)),
      (h c main_arg20).trans (kept_arg20 (launchContents m c)),
      (h c main_arg21).trans (kept_arg21 (launchContents m c)),
      (h c main_arg22).trans (kept_arg22 (launchContents m c)),
      (h c main_arg23).trans (kept_arg23 (launchContents m c))⟩)
    (run_fold (F := Ideal) m ρ)

/-! ## The same results through the spec -/

/-- The spec's node table after the first normalised layer, over the reference's arguments. -/
def H0s : A2 50000 128 :=
  layerLn (m ((c : Thread nD τ).loc main_arg0)) (aggR (F := Ideal) (m ((c : Thread nD τ).loc main_arg0)) (m ((c : Thread nD τ).loc main_arg1)) (m ((c : Thread nD τ).loc main_arg2))) (m ((c : Thread nD τ).loc main_arg4)) (fun j => (m ((c : Thread nD τ).loc main_arg5)) (ix1 j)) (m ((c : Thread nD τ).loc main_arg6)) (fun j => (m ((c : Thread nD τ).loc main_arg7)) (ix1 j))
    (fun j => (m ((c : Thread nD τ).loc main_arg16)) (ix1 j)) (fun j => (m ((c : Thread nD τ).loc main_arg17)) (ix1 j))

/-- … after the second. -/
def H1s : A2 50000 128 :=
  layerLn (H0s m c) (aggR (F := Ideal) (H0s m c) (m ((c : Thread nD τ).loc main_arg1)) (m ((c : Thread nD τ).loc main_arg2))) (m ((c : Thread nD τ).loc main_arg8)) (fun j => (m ((c : Thread nD τ).loc main_arg9)) (ix1 j)) (m ((c : Thread nD τ).loc main_arg10)) (fun j => (m ((c : Thread nD τ).loc main_arg11)) (ix1 j))
    (fun j => (m ((c : Thread nD τ).loc main_arg18)) (ix1 j)) (fun j => (m ((c : Thread nD τ).loc main_arg19)) (ix1 j))

/-- The spec's embedding over the reference's arguments. -/
def EMBs : A2 50000 128 :=
  layerMlp (H1s m c) (aggR (F := Ideal) (H1s m c) (m ((c : Thread nD τ).loc main_arg1)) (m ((c : Thread nD τ).loc main_arg2))) (m ((c : Thread nD τ).loc main_arg12)) (fun j => (m ((c : Thread nD τ).loc main_arg13)) (ix1 j)) (m ((c : Thread nD τ).loc main_arg14)) (fun j => (m ((c : Thread nD τ).loc main_arg15)) (ix1 j))

theorem H0r_eq : H0r m c = H0s m c := by unfold H0r H0s; exact refLayerLn_eq _ _ _ _ _ _ _ _
theorem H1r_eq : H1r m c = H1s m c := by unfold H1r H1s; rw [H0r_eq]; exact refLayerLn_eq _ _ _ _ _ _ _ _
theorem EMBr_eq : EMBr m c = EMBs m c := by unfold EMBr EMBs; rw [H1r_eq]; exact refLayerMlp_eq _ _ _ _ _ _

/-- The spec's log-probabilities over the reference's arguments. -/
def LOGPs : FVec Ideal S512x10 .f32 :=
  tailR (fun i => poolSums (EMBs m c) (fun n => (m ((c : Thread nD τ).loc main_arg3)) (ix1 n)) (i 0) (i 1)) (fun i => poolCnts (fun n => (m ((c : Thread nD τ).loc main_arg3)) (ix1 n)) (i 0))
    (m ((c : Thread nD τ).loc main_arg20)) (m ((c : Thread nD τ).loc main_arg21)) (m ((c : Thread nD τ).loc main_arg22)) (m ((c : Thread nD τ).loc main_arg23))

theorem LOGPr_eq : LOGPr m c = LOGPs m c := by
  unfold LOGPr LOGPs
  rw [EMBr_eq, RefHead.ref_sums_eq, RefHead.ref_cnts_eq]

end Cert.Gin.RefValue

end
-- ==== Proof.lean ====
/-
  A three-layer graph-isomorphism network with a per-graph mean pool, as four Pallas kernels among
  host operations, against its jnp reference, over the extended reals.

  Both programs aggregate neighbours with the same host gather and scatter-add (carried whole, never
  opened). Each layer kernel computes, on blocks of 2000 node rows, W2ᵀ·relu(W1ᵀ·(x + agg) + b1) + b2
  and, for the first two layers, the row normalisation (relu z - μ)·rsqrt(σ² + ε)·g + b; the reference
  does the same on the whole 50000-row table with general dot products and row reductions. Row by row
  both are the spec's row functions: a product accumulated into zero and a host dot product are the
  same finite sum, a lane sum and a host add-reduction from zero are the same finite sum, and a change
  of float format is the identity on the extended reals.
  The pool kernel accumulates, over 25 grid points, the product of the transposed graph-id indicator
  with the rectified embedding block and the indicator's column sums; the reference scatter-adds the
  rectified rows and a column of ones by the batch word. Per graph both are the sum over the nodes
  whose word is that graph's id (a word outside [0, 512) matches no id and lands on no row).
  The head after the pool is the same host operations in both programs (carried whole).
  No law used needs finiteness: only associativity and commutativity of +, 0 + x = x, 1·x = x, 0·x = 0.
-/
import proofs.«421258_j1958505087002_1_alg».proof.Defs
import proofs.«421258_j1958505087002_1_alg».proof.Proof.Gen.Kernel
import proofs.«421258_j1958505087002_1_alg».proof.Proof.Gen.Kernel.Frame
import proofs.«421258_j1958505087002_1_alg».proof.Proof.Gen.KernelIdeal
import proofs.«421258_j1958505087002_1_alg».proof.Proof.Gen.KernelIdeal.Frame
import proofs.«421258_j1958505087002_1_alg».proof.Proof.Gen.ReferenceIdeal
import proofs.«421258_j1958505087002_1_alg».proof.Proof.Gen.Pre_finite_inputs
import proofs.«421258_j1958505087002_1_alg».proof.Proof.KValue
import proofs.«421258_j1958505087002_1_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx Cert.Gin

/-- The neighbour aggregation is printed with the same operations in both programs. -/
theorem agg_same (h : FVec Ideal Cert.KernelIdeal.S50000x128 .f32) (src dst : IVec Cert.KernelIdeal.S800000 32) :
    RefValue.aggR (F := Ideal) h src dst = Fold.aggK (F := Ideal) h src dst := rfl

/-- The head after the pool is printed with the same operations in both programs. -/
theorem tail_same (s : FVec Ideal Cert.KernelIdeal.S512x128 .f32) (n : FVec Ideal Cert.KernelIdeal.S512x1 .f32) (w1 : FVec Ideal Cert.KernelIdeal.S128x128 .f32)
    (b1 : FVec Ideal Cert.KernelIdeal.S128 .f32) (w2 : FVec Ideal Cert.KernelIdeal.S128x10 .f32) (b2 : FVec Ideal Cert.KernelIdeal.S10 .f32) :
    RefValue.tailR (F := Ideal) s n w1 b1 w2 b2 = Fold.tailK (F := Ideal) s n w1 b1 w2 b2 := rfl

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On memories agreeing on the arguments the spec's embedding is one table. -/
theorem emb_agree
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    RefValue.EMBs m' c = KValue.EMB m c := by
  obtain ⟨h0, h1, h2, h3, h4, h5, h6, h7, h8, h9, h10, h11, h12, h13, h14, h15, h16, h17, h18, h19, h20, h21, h22, h23⟩ := h
  unfold RefValue.EMBs RefValue.H1s RefValue.H0s KValue.EMB KValue.H1 KValue.H0
  simp only [h0, h1, h2, h3, h4, h5, h6, h7, h8, h9, h10, h11, h12, h13, h14, h15, h16, h17, h18, h19, h20, h21, h22, h23, agg_same]
  rfl

/-- … and the spec's log-probabilities one table. -/
theorem logp_agree
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    RefValue.LOGPs m' c = KValue.LOGP m c := by
  have he := emb_agree m m' c h
  obtain ⟨h0, h1, h2, h3, h4, h5, h6, h7, h8, h9, h10, h11, h12, h13, h14, h15, h16, h17, h18, h19, h20, h21, h22, h23⟩ := h
  unfold RefValue.LOGPs KValue.LOGP KValue.batchOf
  rw [he, tail_same]
  simp only [h0, h1, h2, h3, h4, h5, h6, h7, h8, h9, h10, h11, h12, h13, h14, h15, h16, h17, h18, h19, h20, h21, h22, h23]

end Agree

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (RefValue.run m ρ)

/-- Both idealized programs end with the spec's embedding and log-probabilities of the (agreeing) arguments. -/
theorem algebraic : Cert.algebraic_KernelIdeal_ReferenceIdeal := by
  intro m ρ m' ρ' _ hagree
  refine ⟨fun c => KValue.EMB m c, fun c => KValue.LOGP m c, ?_, ?_⟩
  · exact (θ_run Cert.KernelIdeal.defs _ _).mono
      (fun r h c => ⟨(h c).1.trans (KValue.res_v42 m ρ c), (h c).2.1.trans (KValue.res_v58 m ρ c), (h c).2.2⟩)
      (Cert.KernelIdeal.GenRun.run_results (F := Ideal) m ρ)
  · refine (θ_run Cert.ReferenceIdeal.defs _ _).mono (fun r h c => ⟨(h c).1.trans ?_, (h c).2.1.trans ?_, (h c).2.2⟩)
      (RefValue.run m' ρ')
    · exact (RefValue.EMBr_eq m' c).trans (emb_agree m m' c (hagree c))
    · exact (RefValue.LOGPr_eq m' c).trans (logp_agree m m' c (hagree c))

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
